-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x7168 : Shape := ⟨2, ![8192, 7168]⟩
abbrev S2112x7168 : Shape := ⟨2, ![2112, 7168]⟩
abbrev S2112 : Shape := ⟨1, ![2112]⟩
abbrev S128x7168 : Shape := ⟨2, ![128, 7168]⟩
abbrev S2x1536x64 : Shape := ⟨3, ![2, 1536, 64]⟩
abbrev S_ : Shape := ⟨0, ![]⟩

class Facts : Prop where
  bcast_S_S8192x7168 : S_.BroadcastsInDim S8192x7168 (![] : Fin 0 → Fin S8192x7168.rank)
  reducesTo_S8192x7168_S_d0_1 : S8192x7168.ReducesTo [0, 1] S_
  h_S_ : 0 < S_.numel
  bcast_S_S2112x7168 : S_.BroadcastsInDim S2112x7168 (![] : Fin 0 → Fin S2112x7168.rank)
  reducesTo_S2112x7168_S_d0_1 : S2112x7168.ReducesTo [0, 1] S_
  bcast_S_S2112 : S_.BroadcastsInDim S2112 (![] : Fin 0 → Fin S2112.rank)
  reducesTo_S2112_S_d0 : S2112.ReducesTo [0] S_
  bcast_S_S128x7168 : S_.BroadcastsInDim S128x7168 (![] : Fin 0 → Fin S128x7168.rank)
  reducesTo_S128x7168_S_d0_1 : S128x7168.ReducesTo [0, 1] S_
  bcast_S_S2x1536x64 : S_.BroadcastsInDim S2x1536x64 (![] : Fin 0 → Fin S2x1536x64.rank)
  reducesTo_S2x1536x64_S_d0_1_2 : S2x1536x64.ReducesTo [0, 1, 2] S_

variable [Facts]

def fn_part1 {F : FTy → Type} [FloatOps F] (main_arg4 : FVec F S2x1536x64 .f32) (main_v13 : IVec S_ 1) (main_v16 : IVec S128x7168 1) : IVec S_ 1 :=
  let main_c_5 : IVec S_ 1 := constantI S_ 1 1#1
  let main_v17 : IVec S_ 1 := (fun x v => Host.reduce IntOp.andi x v reducesTo_S128x7168_S_d0_1 h_S_) main_v16 main_c_5
  let main_v18 : IVec S_ 1 := andi main_v13 main_v17
  let main_v19 : FVec F S2x1536x64 .f32 := Host.absf main_arg4
  let main_cst_6 : FVec F S_ .f32 := constant S_ .f32 0x7F800000#32
  let main_v20 : FVec F S2x1536x64 .f32 := broadcastInDim S2x1536x64 ![] bcast_S_S2x1536x64 main_cst_6
  let main_v21 : IVec S2x1536x64 1 := cmpf .olt main_v19 main_v20
  let main_c_7 : IVec S_ 1 := constantI S_ 1 1#1
  let main_v22 : IVec S_ 1 := (fun x v => Host.reduce IntOp.andi x v reducesTo_S2x1536x64_S_d0_1_2 h_S_) main_v21 main_c_7
  let main_v23 : IVec S_ 1 := andi main_v18 main_v22
  main_v23

def fn {F : FTy → Type} [FloatOps F] (main_arg0 : FVec F S8192x7168 .f32) (main_arg1 : FVec F S2112x7168 .f32) (main_arg2 : FVec F S2112 .f32) (main_arg3 : FVec F S128x7168 .f32) (main_arg4 : FVec F S2x1536x64 .f32) : IVec S_ 1 :=
  let main_v0 : FVec F S8192x7168 .f32 := Host.absf main_arg0
  let main_cst : FVec F S_ .f32 := constant S_ .f32 0x7F800000#32
  let main_v1 : FVec F S8192x7168 .f32 := broadcastInDim S8192x7168 ![] bcast_S_S8192x7168 main_cst
  let main_v2 : IVec S8192x7168 1 := cmpf .olt main_v0 main_v1
  let main_c : IVec S_ 1 := constantI S_ 1 1#1
  let main_v3 : IVec S_ 1 := (fun x v => Host.reduce IntOp.andi x v reducesTo_S8192x7168_S_d0_1 h_S_) main_v2 main_c
  let main_v4 : FVec F S2112x7168 .f32 := Host.absf main_arg1
  let main_cst_0 : FVec F S_ .f32 := constant S_ .f32 0x7F800000#32
  let main_v5 : FVec F S2112x7168 .f32 := broadcastInDim S2112x7168 ![] bcast_S_S2112x7168 main_cst_0
  let main_v6 : IVec S2112x7168 1 := cmpf .olt main_v4 main_v5
  let main_c_1 : IVec S_ 1 := constantI S_ 1 1#1
  let main_v7 : IVec S_ 1 := (fun x v => Host.reduce IntOp.andi x v reducesTo_S2112x7168_S_d0_1 h_S_) main_v6 main_c_1
  let main_v8 : IVec S_ 1 := andi main_v3 main_v7
  let main_v9 : FVec F S2112 .f32 := Host.absf main_arg2
  let main_cst_2 : FVec F S_ .f32 := constant S_ .f32 0x7F800000#32
  let main_v10 : FVec F S2112 .f32 := broadcastInDim S2112 ![] bcast_S_S2112 main_cst_2
  let main_v11 : IVec S2112 1 := cmpf .olt main_v9 main_v10
  let main_c_3 : IVec S_ 1 := constantI S_ 1 1#1
  let main_v12 : IVec S_ 1 := (fun x v => Host.reduce IntOp.andi x v reducesTo_S2112_S_d0 h_S_) main_v11 main_c_3
  let main_v13 : IVec S_ 1 := andi main_v8 main_v12
  let main_v14 : FVec F S128x7168 .f32 := Host.absf main_arg3
  let main_cst_4 : FVec F S_ .f32 := constant S_ .f32 0x7F800000#32
  let main_v15 : FVec F S128x7168 .f32 := broadcastInDim S128x7168 ![] bcast_S_S128x7168 main_cst_4
  let main_v16 : IVec S128x7168 1 := cmpf .olt main_v14 main_v15
  fn_part1 (F := F) main_arg4 main_v13 main_v16
-- ==== Kernel.lean ====
abbrev S8192x7168 : Shape := ⟨2, ![8192, 7168]⟩
abbrev S2112x7168 : Shape := ⟨2, ![2112, 7168]⟩
abbrev S2112 : Shape := ⟨1, ![2112]⟩
abbrev S128x7168 : Shape := ⟨2, ![128, 7168]⟩
abbrev S2x1536x64 : Shape := ⟨3, ![2, 1536, 64]⟩
abbrev S64x7168 : Shape := ⟨2, ![64, 7168]⟩
abbrev S1x1536x64 : Shape := ⟨3, ![1, 1536, 64]⟩
abbrev S1536x64 : Shape := ⟨2, ![1536, 64]⟩
abbrev S1x576x64 : Shape := ⟨3, ![1, 576, 64]⟩
abbrev S576x64 : Shape := ⟨2, ![576, 64]⟩
abbrev S1x2112 : Shape := ⟨2, ![1, 2112]⟩
abbrev S8192x2112 : Shape := ⟨2, ![8192, 2112]⟩
abbrev S512x512 : Shape := ⟨2, ![512, 512]⟩
abbrev S2112x512 : Shape := ⟨2, ![2112, 512]⟩
abbrev S64x512 : Shape := ⟨2, ![64, 512]⟩
abbrev S512x2112 : Shape := ⟨2, ![512, 2112]⟩
abbrev S512x64 : Shape := ⟨2, ![512, 64]⟩
abbrev S64x1536 : Shape := ⟨2, ![64, 1536]⟩
abbrev S512x1536 : Shape := ⟨2, ![512, 1536]⟩
abbrev S64x576 : Shape := ⟨2, ![64, 576]⟩
abbrev S512x576 : Shape := ⟨2, ![512, 576]⟩

abbrev nBuf : Space → Nat
  | .hbm => 13
  | .vmem => 16
  | .smem => 0
  | _ => 0

abbrev bufTy : (tb : Table) → Fin (tcTables nBuf tb) → BufTy
  | .hbm, ⟨0, _⟩ => ⟨S8192x7168, .f32⟩
  | .hbm, ⟨1, _⟩ => ⟨S2112x7168, .f32⟩
  | .hbm, ⟨2, _⟩ => ⟨S2112, .f32⟩
  | .hbm, ⟨3, _⟩ => ⟨S128x7168, .f32⟩
  | .hbm, ⟨4, _⟩ => ⟨S2x1536x64, .f32⟩
  | .hbm, ⟨5, _⟩ => ⟨S64x7168, .f32⟩
  | .hbm, ⟨6, _⟩ => ⟨S64x7168, .f32⟩
  | .hbm, ⟨7, _⟩ => ⟨S1x1536x64, .f32⟩
  | .hbm, ⟨8, _⟩ => ⟨S1536x64, .f32⟩
  | .hbm, ⟨9, _⟩ => ⟨S1x576x64, .f32⟩
  | .hbm, ⟨10, _⟩ => ⟨S576x64, .f32⟩
  | .hbm, ⟨11, _⟩ => ⟨S1x2112, .f32⟩
  | .hbm, ⟨12, _⟩ => ⟨S8192x2112, .f32⟩
  | .local _ .vmem, ⟨0, _⟩ => ⟨S512x512, .f32⟩
  | .local _ .vmem, ⟨1, _⟩ => ⟨S512x512, .f32⟩
  | .local _ .vmem, ⟨2, _⟩ => ⟨S2112x512, .f32⟩
  | .local _ .vmem, ⟨3, _⟩ => ⟨S2112x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S1x2112, .f32⟩
  | .local _ .vmem, ⟨9, _⟩ => ⟨S1536x64, .f32⟩
  | .local _ .vmem, ⟨10, _⟩ => ⟨S576x64, .f32⟩
  | .local _ .vmem, ⟨11, _⟩ => ⟨S512x2112, .f32⟩
  | .local _ .vmem, ⟨12, _⟩ => ⟨S512x2112, .f32⟩
  | .local _ .vmem, ⟨13, _⟩ => ⟨S512x2112, .f32⟩
  | .local _ .vmem, ⟨14, _⟩ => ⟨S512x64, .f32⟩
  | .local _ .vmem, ⟨15, _⟩ => ⟨S512x64, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 14], ![false, false]⟩

def k0_cond2 (i : grid0.Coords) : BitVec 1 :=
  let arg1 : BitVec 32 := BitVec.ofNat 32 (i 1).val
  let c13_i32 : BitVec 32 := 13#32
  let v34 : BitVec 1 := Scalar.cmpi .eq arg1 c13_i32
  let v35 : BitVec 32 := Scalar.extui v34
  let c0_i32_22 : BitVec 32 := 0#32
  let v36 : BitVec 1 := Scalar.cmpi .ne v35 c0_i32_22
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2112x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2112 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1536x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S576x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2112 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  slices_S128x7168_S64x7168_0_0 : S128x7168.Slices ![0, 0] S64x7168
  slices_S128x7168_S64x7168_64_0 : S128x7168.Slices ![64, 0] S64x7168
  slices_S2x1536x64_S1x1536x64_0_0_0 : S2x1536x64.Slices ![0, 0, 0] S1x1536x64
  shapeCasts_S1x1536x64_S1536x64 : S1x1536x64.ShapeCasts S1536x64
  slices_S2x1536x64_S1x576x64_1_0_0 : S2x1536x64.Slices ![1, 0, 0] S1x576x64
  shapeCasts_S1x576x64_S576x64 : S1x576x64.ShapeCasts S576x64
  shapeCasts_S2112_S1x2112 : S2112.ShapeCasts S1x2112
  inb_S512x2112_S512x2112_0_0 : ∀ a, (![0, 0] : Fin 2 → Nat) a + S512x2112.size a ≤ S512x2112.size a
  h_S512x2112 : 0 < S512x2112.numel
  shapeCasts_S512x2112_S512x2112 : S512x2112.ShapeCasts S512x2112
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S2112x512_S2112x512_0_0 : ∀ a, (![0, 0] : Fin 2 → Nat) a + S2112x512.size a ≤ S2112x512.size a
  h_S2112x512 : 0 < S2112x512.numel
  inb_S64x512_S64x512_0_0 : ∀ a, (![0, 0] : Fin 2 → Nat) a + S64x512.size a ≤ S64x512.size a
  h_S64x512 : 0 < S64x512.numel
  shapeCasts_S64x512_S64x512 : S64x512.ShapeCasts S64x512
  transposes_S2112x512_p1_0_S512x2112 : S2112x512.Transposes [1, 0] S512x2112
  transposes_S64x512_p1_0_S512x64 : S64x512.Transposes [1, 0] S512x64
  inb_S1536x64_S1536x64_0_0 : ∀ a, (![0, 0] : Fin 2 → Nat) a + S1536x64.size a ≤ S1536x64.size a
  h_S1536x64 : 0 < S1536x64.numel
  shapeCasts_S1536x64_S1536x64 : S1536x64.ShapeCasts S1536x64
  inb_S576x64_S576x64_0_0 : ∀ a, (![0, 0] : Fin 2 → Nat) a + S576x64.size a ≤ S576x64.size a
  h_S576x64 : 0 < S576x64.numel
  shapeCasts_S576x64_S576x64 : S576x64.ShapeCasts S576x64
  transposes_S1536x64_p1_0_S64x1536 : S1536x64.Transposes [1, 0] S64x1536
  transposes_S576x64_p1_0_S64x576 : S576x64.Transposes [1, 0] S64x576
  inb_S1x2112_S1x2112_0_0 : ∀ a, (![0, 0] : Fin 2 → Nat) a + S1x2112.size a ≤ S1x2112.size a
  h_S1x2112 : 0 < S1x2112.numel
  shapeCasts_S1x2112_S1x2112 : S1x2112.ShapeCasts S1x2112
  broadcasts_S1x2112_S512x2112 : S1x2112.Broadcasts S512x2112
  slices_S512x2112_o0_0_S512x1536 : S512x2112.Slices ![0, 0] S512x1536
  inb_S512x2112_S512x1536_0_0 : ∀ a, (![0, 0] : Fin 2 → Nat) a + S512x1536.size a ≤ S512x2112.size a
  h_S512x1536 : 0 < S512x1536.numel
  slices_S512x2112_o0_1536_S512x576 : S512x2112.Slices ![0, 1536] S512x576
  inb_S512x2112_S512x576_0_1536 : ∀ a, (![0, 1536] : Fin 2 → Nat) a + S512x576.size a ≤ S512x2112.size a
  h_S512x576 : 0 < S512x576.numel
  dot_S512x512_S512x2112_S512x2112_1_0_0_1_n_n_wf : DotDims.WF S512x512 S512x2112 S512x2112 [1] [0] [0] [1] [] []
  dot_S512x512_S512x64_S512x64_1_0_0_1_n_n_wf : DotDims.WF S512x512 S512x64 S512x64 [1] [0] [0] [1] [] []
  dot_S512x64_S64x1536_S512x1536_1_0_0_1_n_n_wf : DotDims.WF S512x64 S64x1536 S512x1536 [1] [0] [0] [1] [] []
  dot_S512x64_S64x576_S512x576_1_0_0_1_n_n_wf : DotDims.WF S512x64 S64x576 S512x576 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x7168.size a
  hwx0_0 : ∀ i : grid0.Coords, EltTy.bits .f32 = 32 ∨ (Rect.block (s := S8192x7168) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2112x512.size a ≤ S2112x7168.size a
  hwx0_1 : ∀ i : grid0.Coords, EltTy.bits .f32 = 32 ∨ (Rect.block (s := S2112x7168) S2112x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x7168.size a
  hwx0_2 : ∀ i : grid0.Coords, EltTy.bits .f32 = 32 ∨ (Rect.block (s := S64x7168) S64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x7168.size a
  hwx0_3 : ∀ i : grid0.Coords, EltTy.bits .f32 = 32 ∨ (Rect.block (s := S64x7168) S64x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2112.size a ≤ S1x2112.size a
  hwx0_4 : ∀ i : grid0.Coords, EltTy.bits .f32 = 32 ∨ (Rect.block (s := S1x2112) S1x2112.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1536x64.size a ≤ S1536x64.size a
  hwx0_5 : ∀ i : grid0.Coords, EltTy.bits .f32 = 32 ∨ (Rect.block (s := S1536x64) S1536x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S576x64.size a ≤ S576x64.size a
  hwx0_6 : ∀ i : grid0.Coords, EltTy.bits .f32 = 32 ∨ (Rect.block (s := S576x64) S576x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x2112.size a ≤ S8192x2112.size a
  hwx0_7 : ∀ i : grid0.Coords, EltTy.bits .f32 = 32 ∨ (Rect.block (s := S8192x2112) S512x2112.size (cc0_transform_7 i) (hinb0_7 i)).WholeWords (EltTy.packing .f32)

variable [Facts₀]

def dot_S512x512_S512x2112_S512x2112_1_0_0_1_n_n : DotDims S512x512 S512x2112 S512x2112 where
  lhsContracting := [1]
  rhsContracting := [0]
  lhsNonContracting := [0]
  rhsNonContracting := [1]
  lhsBatch := []
  rhsBatch := []
  wf := dot_S512x512_S512x2112_S512x2112_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x64_S64x1536_S512x1536_1_0_0_1_n_n : DotDims S512x64 S64x1536 S512x1536 where
  lhsContracting := [1]
  rhsContracting := [0]
  lhsNonContracting := [0]
  rhsNonContracting := [1]
  lhsBatch := []
  rhsBatch := []
  wf := dot_S512x64_S64x1536_S512x1536_1_0_0_1_n_n_wf
def dot_S512x64_S64x576_S512x576_1_0_0_1_n_n : DotDims S512x64 S64x576 S512x576 where
  lhsContracting := [1]
  rhsContracting := [0]
  lhsNonContracting := [0]
  rhsNonContracting := [1]
  lhsBatch := []
  rhsBatch := []
  wf := dot_S512x64_S64x576_S512x576_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2112x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x2112.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1536x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S576x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S512x2112.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x7168 : Shape := ⟨2, ![8192, 7168]⟩
abbrev S2112x7168 : Shape := ⟨2, ![2112, 7168]⟩
abbrev S2112 : Shape := ⟨1, ![2112]⟩
abbrev S128x7168 : Shape := ⟨2, ![128, 7168]⟩
abbrev S2x1536x64 : Shape := ⟨3, ![2, 1536, 64]⟩
abbrev S8192x2112 : Shape := ⟨2, ![8192, 2112]⟩
abbrev S1x2112 : Shape := ⟨2, ![1, 2112]⟩
abbrev S8192x128 : Shape := ⟨2, ![8192, 128]⟩
abbrev S8192x64 : Shape := ⟨2, ![8192, 64]⟩
abbrev S1x1536x64 : Shape := ⟨3, ![1, 1536, 64]⟩
abbrev S1536x64 : Shape := ⟨2, ![1536, 64]⟩
abbrev S8192x1536 : Shape := ⟨2, ![8192, 1536]⟩
abbrev S_ : Shape := ⟨0, ![]⟩
abbrev S1 : Shape := ⟨1, ![1]⟩
abbrev S1x576x64 : Shape := ⟨3, ![1, 576, 64]⟩
abbrev S576x64 : Shape := ⟨2, ![576, 64]⟩
abbrev S8192x576 : Shape := ⟨2, ![8192, 576]⟩

abbrev nBuf : Space → Nat
  | .hbm => 24
  | .vmem => 0
  | .smem => 0
  | _ => 0

abbrev bufTy : (tb : Table) → Fin (tcTables nBuf tb) → BufTy
  | .hbm, ⟨0, _⟩ => ⟨S8192x7168, .f32⟩
  | .hbm, ⟨1, _⟩ => ⟨S2112x7168, .f32⟩
  | .hbm, ⟨2, _⟩ => ⟨S2112, .f32⟩
  | .hbm, ⟨3, _⟩ => ⟨S128x7168, .f32⟩
  | .hbm, ⟨4, _⟩ => ⟨S2x1536x64, .f32⟩
  | .hbm, ⟨5, _⟩ => ⟨S8192x2112, .f32⟩
  | .hbm, ⟨6, _⟩ => ⟨S1x2112, .f32⟩
  | .hbm, ⟨7, _⟩ => ⟨S8192x2112, .f32⟩
  | .hbm, ⟨8, _⟩ => ⟨S8192x2112, .f32⟩
  | .hbm, ⟨9, _⟩ => ⟨S8192x128, .f32⟩
  | .hbm, ⟨10, _⟩ => ⟨S8192x64, .f32⟩
  | .hbm, ⟨11, _⟩ => ⟨S1x1536x64, .f32⟩
  | .hbm, ⟨12, _⟩ => ⟨S1536x64, .f32⟩
  | .hbm, ⟨13, _⟩ => ⟨S8192x1536, .f32⟩
  | .hbm, ⟨14, _⟩ => ⟨S_, .i32⟩
  | .hbm, ⟨15, _⟩ => ⟨S1, .i32⟩
  | .hbm, ⟨16, _⟩ => ⟨S8192x2112, .f32⟩
  | .hbm, ⟨17, _⟩ => ⟨S8192x64, .f32⟩
  | .hbm, ⟨18, _⟩ => ⟨S1x576x64, .f32⟩
  | .hbm, ⟨19, _⟩ => ⟨S576x64, .f32⟩
  | .hbm, ⟨20, _⟩ => ⟨S8192x576, .f32⟩
  | .hbm, ⟨21, _⟩ => ⟨S_, .i32⟩
  | .hbm, ⟨22, _⟩ => ⟨S1, .i32⟩
  | .hbm, ⟨23, _⟩ => ⟨S8192x2112, .f32⟩
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S2112_S1x2112_1 : S2112.BroadcastsInDim S1x2112 (![1] : Fin 1 → Fin S1x2112.rank)
  bcast_S1x2112_S8192x2112_0_1 : S1x2112.BroadcastsInDim S8192x2112 (![0, 1] : Fin 2 → Fin S8192x2112.rank)
  slices_S8192x128_S8192x64_0_0 : S8192x128.Slices ![0, 0] S8192x64
  slices_S2x1536x64_S1x1536x64_0_0_0 : S2x1536x64.Slices ![0, 0, 0] S1x1536x64
  shapeCasts_S1x1536x64_S1536x64 : S1x1536x64.ShapeCasts S1536x64
  bcast_S_S1 : S_.BroadcastsInDim S1 (![] : Fin 0 → Fin S1.rank)
  slices_S8192x128_S8192x64_0_64 : S8192x128.Slices ![0, 64] S8192x64
  slices_S2x1536x64_S1x576x64_1_0_0 : S2x1536x64.Slices ![1, 0, 0] S1x576x64
  shapeCasts_S1x576x64_S576x64 : S1x576x64.ShapeCasts S576x64
  dot_S8192x7168_S2112x7168_S8192x2112_1_1_0_0_n_n_wf : DotDims.WF S8192x7168 S2112x7168 S8192x2112 [1] [1] [0] [0] [] []
  dot_S8192x7168_S128x7168_S8192x128_1_1_0_0_n_n_wf : DotDims.WF S8192x7168 S128x7168 S8192x128 [1] [1] [0] [0] [] []
  dot_S8192x64_S1536x64_S8192x1536_1_1_0_0_n_n_wf : DotDims.WF S8192x64 S1536x64 S8192x1536 [1] [1] [0] [0] [] []
  scatter_S8192x2112_S1_S8192x1536_01_n_1_0_wf : ScatterDims.WF S8192x2112 S1 S8192x1536 [0, 1] [] [1] 0
  dot_S8192x64_S576x64_S8192x576_1_1_0_0_n_n_wf : DotDims.WF S8192x64 S576x64 S8192x576 [1] [1] [0] [0] [] []
  scatter_S8192x2112_S1_S8192x576_01_n_1_0_wf : ScatterDims.WF S8192x2112 S1 S8192x576 [0, 1] [] [1] 0

variable [Facts₀]

def dot_S8192x7168_S2112x7168_S8192x2112_1_1_0_0_n_n : DotDims S8192x7168 S2112x7168 S8192x2112 where
  lhsContracting := [1]
  rhsContracting := [1]
  lhsNonContracting := [0]
  rhsNonContracting := [0]
  lhsBatch := []
  rhsBatch := []
  wf := dot_S8192x7168_S2112x7168_S8192x2112_1_1_0_0_n_n_wf
def dot_S8192x7168_S128x7168_S8192x128_1_1_0_0_n_n : DotDims S8192x7168 S128x7168 S8192x128 where
  lhsContracting := [1]
  rhsContracting := [1]
  lhsNonContracting := [0]
  rhsNonContracting := [0]
  lhsBatch := []
  rhsBatch := []
  wf := dot_S8192x7168_S128x7168_S8192x128_1_1_0_0_n_n_wf
def dot_S8192x64_S1536x64_S8192x1536_1_1_0_0_n_n : DotDims S8192x64 S1536x64 S8192x1536 where
  lhsContracting := [1]
  rhsContracting := [1]
  lhsNonContracting := [0]
  rhsNonContracting := [0]
  lhsBatch := []
  rhsBatch := []
  wf := dot_S8192x64_S1536x64_S8192x1536_1_1_0_0_n_n_wf
def scatter_S8192x2112_S1_S8192x1536_01_n_1_0 : ScatterDims S8192x2112 S1 S8192x1536 where
  updateWindowDims := [0, 1]
  insertedWindowDims := []
  scatterDimsToOperandDims := [1]
  indexVectorDim := 0
  wf := scatter_S8192x2112_S1_S8192x1536_01_n_1_0_wf
def dot_S8192x64_S576x64_S8192x576_1_1_0_0_n_n : DotDims S8192x64 S576x64 S8192x576 where
  lhsContracting := [1]
  rhsContracting := [1]
  lhsNonContracting := [0]
  rhsNonContracting := [0]
  lhsBatch := []
  rhsBatch := []
  wf := dot_S8192x64_S576x64_S8192x576_1_1_0_0_n_n_wf
def scatter_S8192x2112_S1_S8192x576_01_n_1_0 : ScatterDims S8192x2112 S1 S8192x576 where
  updateWindowDims := [0, 1]
  insertedWindowDims := []
  scatterDimsToOperandDims := [1]
  indexVectorDim := 0
  wf := scatter_S8192x2112_S1_S8192x576_01_n_1_0_wf

class Facts : Prop extends Facts₀ where

variable [Facts]
-- ==== Proof.Pieces.lean ====
/-
  What one run of the kernel body leaves behind, as plain functions of what it found.

  The body keeps three running sums in scratch memory: the partial product x·Wᵀ (512 × 2112) and the two partial
  down-projections x·A₀ᵀ and x·A₁ᵀ (512 × 64 each). At a first reduction step it zeroes them before adding this
  step's term; at every other step it adds to what the step before left. At the last reduction step it also
  writes the output block, in two column ranges: columns [0, 1536) from the first up-projection and columns
  [1536, 2112) from the second, each added to (running sum + bias).
-/
import proofs.«161944_j79800492359938_1_alg».proof.Proof.Gen.KernelIdeal.Frame
import Idealize.ShloMosaic.Lib.Pipeline.Value
import Idealize.ShloMosaic.Lib.Tactic
import Idealize.ShloMosaic.Lib.ValueIdx
set_option maxRecDepth 16384

noncomputable section

namespace Cert.KernelIdeal.Pieces

open Cert.KernelIdeal Cert.KernelIdeal.Gen Idealize.ShloMosaic Idealize.ShloMosaic.TcCoe Idealize.SL.Sem Idealize.ShloMosaic.Tactic
open Idealize.ShloMosaic.ValueIdx

variable {F : FTy → Type} [FloatOps F]

theorem hz : (![0, 0] : Fin 2 → Nat) = fun _ => 0 := funext fun a => by fin_cases a <;> rfl

/-! ## The running sums after a first step (zeroed, then this step's term added) -/

theorem sA0 (c : Dev nD) (i : grid0.Coords) (arg2 : Memref sig .tc .vmem S512x512 .f32) (harg2 : arg2.IsWhole) (arg3 : Memref sig .tc .vmem S2112x512 .f32) (harg3 : arg3.IsWhole) (arg4 : Memref sig .tc .vmem S64x512 .f32) (harg4 : arg4.IsWhole) (arg5 : Memref sig .tc .vmem S64x512 .f32) (harg5 : arg5.IsWhole) (arg6 : Memref sig .tc .vmem S1x2112 .f32) (harg6 : arg6.IsWhole) (arg7 : Memref sig .tc .vmem S1536x64 .f32) (harg7 : arg7.IsWhole) (arg8 : Memref sig .tc .vmem S576x64 .f32) (harg8 : arg8.IsWhole) (arg9 : Memref sig .tc .vmem S512x2112 .f32) (harg9 : arg9.IsWhole) (arg10 : Memref sig .tc .vmem S512x2112 .f32) (harg10 : arg10.IsWhole) (arg11 : Memref sig .tc .vmem S512x64 .f32) (harg11 : arg11.IsWhole) (arg12 : Memref sig .tc .vmem S512x64 .f32) (harg12 : arg12.IsWhole) (hc0 : cond0_0 i) (hc1 : ¬cond0_1 i) (x0 : Vec F S512x512 .f32) (x1 : Vec F S2112x512 .f32) (x2 : Vec F S64x512 .f32) (x3 : Vec F S64x512 .f32) (x4 : Vec F S1x2112 .f32) (x5 : Vec F S1536x64 .f32) (x6 : Vec F S576x64 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 = k0_pay9 x0 x1 (k0_pay5 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S512x2112) hz, View.readCov_unit_zero (S := S512x2112) _ hz]
  simp only [View.readAt_eq_ld, harg2.read_unread, harg3.read_unread, harg10.read_unread, View.ld_unit_zero (S := S512x512) hz, View.ld_unit_zero (S := S2112x512) hz, View.ld_unit_zero (S := S512x2112) hz]

theorem sA1 (c : Dev nD) (i : grid0.Coords) (arg2 : Memref sig .tc .vmem S512x512 .f32) (harg2 : arg2.IsWhole) (arg3 : Memref sig .tc .vmem S2112x512 .f32) (harg3 : arg3.IsWhole) (arg4 : Memref sig .tc .vmem S64x512 .f32) (harg4 : arg4.IsWhole) (arg5 : Memref sig .tc .vmem S64x512 .f32) (harg5 : arg5.IsWhole) (arg6 : Memref sig .tc .vmem S1x2112 .f32) (harg6 : arg6.IsWhole) (arg7 : Memref sig .tc .vmem S1536x64 .f32) (harg7 : arg7.IsWhole) (arg8 : Memref sig .tc .vmem S576x64 .f32) (harg8 : arg8.IsWhole) (arg9 : Memref sig .tc .vmem S512x2112 .f32) (harg9 : arg9.IsWhole) (arg10 : Memref sig .tc .vmem S512x2112 .f32) (harg10 : arg10.IsWhole) (arg11 : Memref sig .tc .vmem S512x64 .f32) (harg11 : arg11.IsWhole) (arg12 : Memref sig .tc .vmem S512x64 .f32) (harg12 : arg12.IsWhole) (hc0 : cond0_0 i) (hc1 : ¬cond0_1 i) (x0 : Vec F S512x512 .f32) (x1 : Vec F S2112x512 .f32) (x2 : Vec F S64x512 .f32) (x3 : Vec F S64x512 .f32) (x4 : Vec F S1x2112 .f32) (x5 : Vec F S1536x64 .f32) (x6 : Vec F S576x64 .f32) :
    sout0_A_1 c i arg2 harg2 arg3 harg3 arg4 harg4 arg5 harg5 arg6 harg6 arg7 harg7 arg8 harg8 arg9 harg9 arg10 harg10 arg11 harg11 arg12 harg12 hc0 hc1 x0 x1 x2 x3 x4 x5 x6 = k0_pay10 x0 x2 (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S512x64) hz, View.readCov_unit_zero (S := S512x64) _ hz]
  simp only [View.readAt_eq_ld, harg2.read_unread, harg4.read_unread, harg11.read_unread, View.ld_unit_zero (S := S512x512) hz, View.ld_unit_zero (S := S64x512) hz, View.ld_unit_zero (S := S512x64) hz]

theorem sA2 (c : Dev nD) (i : grid0.Coords) (arg2 : Memref sig .tc .vmem S512x512 .f32) (harg2 : arg2.IsWhole) (arg3 : Memref sig .tc .vmem S2112x512 .f32) (harg3 : arg3.IsWhole) (arg4 : Memref sig .tc .vmem S64x512 .f32) (harg4 : arg4.IsWhole) (arg5 : Memref sig .tc .vmem S64x512 .f32) (harg5 : arg5.IsWhole) (arg6 : Memref sig .tc .vmem S1x2112 .f32) (harg6 : arg6.IsWhole) (arg7 : Memref sig .tc .vmem S1536x64 .f32) (harg7 : arg7.IsWhole) (arg8 : Memref sig .tc .vmem S576x64 .f32) (harg8 : arg8.IsWhole) (arg9 : Memref sig .tc .vmem S512x2112 .f32) (harg9 : arg9.IsWhole) (arg10 : Memref sig .tc .vmem S512x2112 .f32) (harg10 : arg10.IsWhole) (arg11 : Memref sig .tc .vmem S512x64 .f32) (harg11 : arg11.IsWhole) (arg12 : Memref sig .tc .vmem S512x64 .f32) (harg12 : arg12.IsWhole) (hc0 : cond0_0 i) (hc1 : ¬cond0_1 i) (x0 : Vec F S512x512 .f32) (x1 : Vec F S2112x512 .f32) (x2 : Vec F S64x512 .f32) (x3 : Vec F S64x512 .f32) (x4 : Vec F S1x2112 .f32) (x5 : Vec F S1536x64 .f32) (x6 : Vec F S576x64 .f32) :
    sout0_A_2 c i arg2 harg2 arg3 harg3 arg4 harg4 arg5 harg5 arg6 harg6 arg7 harg7 arg8 harg8 arg9 harg9 arg10 harg10 arg11 harg11 arg12 harg12 hc0 hc1 x0 x1 x2 x3 x4 x5 x6 = k0_pay1 (k0_pay11 x0 x3 (k0_pay7 (F := F))) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S512x64) hz, View.readCov_unit_zero (S := S512x64) _ hz]
  simp only [View.readAt_eq_ld, harg2.read_unread, harg5.read_unread, harg12.read_unread, View.ld_unit_zero (S := S512x512) hz, View.ld_unit_zero (S := S64x512) hz, View.ld_unit_zero (S := S512x64) hz]

/-! ## The running sums after a middle step (this step's term added to what was there) -/

theorem sB0 (c : Dev nD) (i : grid0.Coords) (arg2 : Memref sig .tc .vmem S512x512 .f32) (harg2 : arg2.IsWhole) (arg3 : Memref sig .tc .vmem S2112x512 .f32) (harg3 : arg3.IsWhole) (arg4 : Memref sig .tc .vmem S64x512 .f32) (harg4 : arg4.IsWhole) (arg5 : Memref sig .tc .vmem S64x512 .f32) (harg5 : arg5.IsWhole) (arg6 : Memref sig .tc .vmem S1x2112 .f32) (harg6 : arg6.IsWhole) (arg7 : Memref sig .tc .vmem S1536x64 .f32) (harg7 : arg7.IsWhole) (arg8 : Memref sig .tc .vmem S576x64 .f32) (harg8 : arg8.IsWhole) (arg9 : Memref sig .tc .vmem S512x2112 .f32) (harg9 : arg9.IsWhole) (arg10 : Memref sig .tc .vmem S512x2112 .f32) (harg10 : arg10.IsWhole) (arg11 : Memref sig .tc .vmem S512x64 .f32) (harg11 : arg11.IsWhole) (arg12 : Memref sig .tc .vmem S512x64 .f32) (harg12 : arg12.IsWhole) (hc0 : ¬cond0_0 i) (hc1 : ¬cond0_1 i) (x0 : Vec F S512x512 .f32) (x1 : Vec F S2112x512 .f32) (x2 : Vec F S64x512 .f32) (x3 : Vec F S64x512 .f32) (x4 : Vec F S1x2112 .f32) (x5 : Vec F S1536x64 .f32) (x6 : Vec F S576x64 .f32) (xs0 : Vec F S512x2112 .f32) (xs1 : Vec F S512x64 .f32) (xs2 : Vec F S512x64 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay9 x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_B
  dsimp only
  sl_unfold_words
  rw [View.canon_unit_zero hz]
  simp only [View.readAt_eq_ld, harg2.read_unread, harg3.read_unread, harg10.read_unread, View.ld_unit_zero (S := S512x512) hz, View.ld_unit_zero (S := S2112x512) hz, View.ld_unit_zero (S := S512x2112) hz]

theorem sB1 (c : Dev nD) (i : grid0.Coords) (arg2 : Memref sig .tc .vmem S512x512 .f32) (harg2 : arg2.IsWhole) (arg3 : Memref sig .tc .vmem S2112x512 .f32) (harg3 : arg3.IsWhole) (arg4 : Memref sig .tc .vmem S64x512 .f32) (harg4 : arg4.IsWhole) (arg5 : Memref sig .tc .vmem S64x512 .f32) (harg5 : arg5.IsWhole) (arg6 : Memref sig .tc .vmem S1x2112 .f32) (harg6 : arg6.IsWhole) (arg7 : Memref sig .tc .vmem S1536x64 .f32) (harg7 : arg7.IsWhole) (arg8 : Memref sig .tc .vmem S576x64 .f32) (harg8 : arg8.IsWhole) (arg9 : Memref sig .tc .vmem S512x2112 .f32) (harg9 : arg9.IsWhole) (arg10 : Memref sig .tc .vmem S512x2112 .f32) (harg10 : arg10.IsWhole) (arg11 : Memref sig .tc .vmem S512x64 .f32) (harg11 : arg11.IsWhole) (arg12 : Memref sig .tc .vmem S512x64 .f32) (harg12 : arg12.IsWhole) (hc0 : ¬cond0_0 i) (hc1 : ¬cond0_1 i) (x0 : Vec F S512x512 .f32) (x1 : Vec F S2112x512 .f32) (x2 : Vec F S64x512 .f32) (x3 : Vec F S64x512 .f32) (x4 : Vec F S1x2112 .f32) (x5 : Vec F S1536x64 .f32) (x6 : Vec F S576x64 .f32) (xs0 : Vec F S512x2112 .f32) (xs1 : Vec F S512x64 .f32) (xs2 : Vec F S512x64 .f32) :
    sout0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay10 x0 x2 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_B
  dsimp only
  sl_unfold_words
  rw [View.canon_unit_zero hz]
  simp only [View.readAt_eq_ld, harg2.read_unread, harg4.read_unread, harg11.read_unread, View.ld_unit_zero (S := S512x512) hz, View.ld_unit_zero (S := S64x512) hz, View.ld_unit_zero (S := S512x64) hz]

theorem sB2 (c : Dev nD) (i : grid0.Coords) (arg2 : Memref sig .tc .vmem S512x512 .f32) (harg2 : arg2.IsWhole) (arg3 : Memref sig .tc .vmem S2112x512 .f32) (harg3 : arg3.IsWhole) (arg4 : Memref sig .tc .vmem S64x512 .f32) (harg4 : arg4.IsWhole) (arg5 : Memref sig .tc .vmem S64x512 .f32) (harg5 : arg5.IsWhole) (arg6 : Memref sig .tc .vmem S1x2112 .f32) (harg6 : arg6.IsWhole) (arg7 : Memref sig .tc .vmem S1536x64 .f32) (harg7 : arg7.IsWhole) (arg8 : Memref sig .tc .vmem S576x64 .f32) (harg8 : arg8.IsWhole) (arg9 : Memref sig .tc .vmem S512x2112 .f32) (harg9 : arg9.IsWhole) (arg10 : Memref sig .tc .vmem S512x2112 .f32) (harg10 : arg10.IsWhole) (arg11 : Memref sig .tc .vmem S512x64 .f32) (harg11 : arg11.IsWhole) (arg12 : Memref sig .tc .vmem S512x64 .f32) (harg12 : arg12.IsWhole) (hc0 : ¬cond0_0 i) (hc1 : ¬cond0_1 i) (x0 : Vec F S512x512 .f32) (x1 : Vec F S2112x512 .f32) (x2 : Vec F S64x512 .f32) (x3 : Vec F S64x512 .f32) (x4 : Vec F S1x2112 .f32) (x5 : Vec F S1536x64 .f32) (x6 : Vec F S576x64 .f32) (xs0 : Vec F S512x2112 .f32) (xs1 : Vec F S512x64 .f32) (xs2 : Vec F S512x64 .f32) :
    sout0_B_2 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay1 (k0_pay11 x0 x3 xs2) := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_B
  dsimp only
  sl_unfold_words
  rw [View.canon_unit_zero hz]
  simp only [View.readAt_eq_ld, harg2.read_unread, harg5.read_unread, harg12.read_unread, View.ld_unit_zero (S := S512x512) hz, View.ld_unit_zero (S := S64x512) hz, View.ld_unit_zero (S := S512x64) hz]

/-! ## The running sums after a last step: the same update -/

theorem sC0 (c : Dev nD) (i : grid0.Coords) (arg2 : Memref sig .tc .vmem S512x512 .f32) (harg2 : arg2.IsWhole) (arg3 : Memref sig .tc .vmem S2112x512 .f32) (harg3 : arg3.IsWhole) (arg4 : Memref sig .tc .vmem S64x512 .f32) (harg4 : arg4.IsWhole) (arg5 : Memref sig .tc .vmem S64x512 .f32) (harg5 : arg5.IsWhole) (arg6 : Memref sig .tc .vmem S1x2112 .f32) (harg6 : arg6.IsWhole) (arg7 : Memref sig .tc .vmem S1536x64 .f32) (harg7 : arg7.IsWhole) (arg8 : Memref sig .tc .vmem S576x64 .f32) (harg8 : arg8.IsWhole) (arg9 : Memref sig .tc .vmem S512x2112 .f32) (harg9 : arg9.IsWhole) (arg10 : Memref sig .tc .vmem S512x2112 .f32) (harg10 : arg10.IsWhole) (arg11 : Memref sig .tc .vmem S512x64 .f32) (harg11 : arg11.IsWhole) (arg12 : Memref sig .tc .vmem S512x64 .f32) (harg12 : arg12.IsWhole) (hc0 : ¬cond0_0 i) (hc1 : cond0_1 i) (x0 : Vec F S512x512 .f32) (x1 : Vec F S2112x512 .f32) (x2 : Vec F S64x512 .f32) (x3 : Vec F S64x512 .f32) (x4 : Vec F S1x2112 .f32) (x5 : Vec F S1536x64 .f32) (x6 : Vec F S576x64 .f32) (xs0 : Vec F S512x2112 .f32) (xs1 : Vec F S512x64 .f32) (xs2 : Vec F S512x64 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay9 x0 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_C
  dsimp only
  sl_unfold_words
  rw [View.canon_unit_zero hz]
  simp only [View.readAt_eq_ld, harg2.read_unread, harg3.read_unread, harg10.read_unread, View.ld_unit_zero (S := S512x512) hz, View.ld_unit_zero (S := S2112x512) hz, View.ld_unit_zero (S := S512x2112) hz]

theorem sC1 (c : Dev nD) (i : grid0.Coords) (arg2 : Memref sig .tc .vmem S512x512 .f32) (harg2 : arg2.IsWhole) (arg3 : Memref sig .tc .vmem S2112x512 .f32) (harg3 : arg3.IsWhole) (arg4 : Memref sig .tc .vmem S64x512 .f32) (harg4 : arg4.IsWhole) (arg5 : Memref sig .tc .vmem S64x512 .f32) (harg5 : arg5.IsWhole) (arg6 : Memref sig .tc .vmem S1x2112 .f32) (harg6 : arg6.IsWhole) (arg7 : Memref sig .tc .vmem S1536x64 .f32) (harg7 : arg7.IsWhole) (arg8 : Memref sig .tc .vmem S576x64 .f32) (harg8 : arg8.IsWhole) (arg9 : Memref sig .tc .vmem S512x2112 .f32) (harg9 : arg9.IsWhole) (arg10 : Memref sig .tc .vmem S512x2112 .f32) (harg10 : arg10.IsWhole) (arg11 : Memref sig .tc .vmem S512x64 .f32) (harg11 : arg11.IsWhole) (arg12 : Memref sig .tc .vmem S512x64 .f32) (harg12 : arg12.IsWhole) (hc0 : ¬cond0_0 i) (hc1 : cond0_1 i) (x0 : Vec F S512x512 .f32) (x1 : Vec F S2112x512 .f32) (x2 : Vec F S64x512 .f32) (x3 : Vec F S64x512 .f32) (x4 : Vec F S1x2112 .f32) (x5 : Vec F S1536x64 .f32) (x6 : Vec F S576x64 .f32) (xs0 : Vec F S512x2112 .f32) (xs1 : Vec F S512x64 .f32) (xs2 : Vec F S512x64 .f32) :
    sout0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay10 x0 x2 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_C
  dsimp only
  sl_unfold_words
  rw [View.canon_unit_zero hz]
  simp only [View.readAt_eq_ld, harg2.read_unread, harg4.read_unread, harg11.read_unread, View.ld_unit_zero (S := S512x512) hz, View.ld_unit_zero (S := S64x512) hz, View.ld_unit_zero (S := S512x64) hz]

theorem sC2 (c : Dev nD) (i : grid0.Coords) (arg2 : Memref sig .tc .vmem S512x512 .f32) (harg2 : arg2.IsWhole) (arg3 : Memref sig .tc .vmem S2112x512 .f32) (harg3 : arg3.IsWhole) (arg4 : Memref sig .tc .vmem S64x512 .f32) (harg4 : arg4.IsWhole) (arg5 : Memref sig .tc .vmem S64x512 .f32) (harg5 : arg5.IsWhole) (arg6 : Memref sig .tc .vmem S1x2112 .f32) (harg6 : arg6.IsWhole) (arg7 : Memref sig .tc .vmem S1536x64 .f32) (harg7 : arg7.IsWhole) (arg8 : Memref sig .tc .vmem S576x64 .f32) (harg8 : arg8.IsWhole) (arg9 : Memref sig .tc .vmem S512x2112 .f32) (harg9 : arg9.IsWhole) (arg10 : Memref sig .tc .vmem S512x2112 .f32) (harg10 : arg10.IsWhole) (arg11 : Memref sig .tc .vmem S512x64 .f32) (harg11 : arg11.IsWhole) (arg12 : Memref sig .tc .vmem S512x64 .f32) (harg12 : arg12.IsWhole) (hc0 : ¬cond0_0 i) (hc1 : cond0_1 i) (x0 : Vec F S512x512 .f32) (x1 : Vec F S2112x512 .f32) (x2 : Vec F S64x512 .f32) (x3 : Vec F S64x512 .f32) (x4 : Vec F S1x2112 .f32) (x5 : Vec F S1536x64 .f32) (x6 : Vec F S576x64 .f32) (xs0 : Vec F S512x2112 .f32) (xs1 : Vec F S512x64 .f32) (xs2 : Vec F S512x64 .f32) :
    sout0_C_2 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay1 (k0_pay11 x0 x3 xs2) := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_C
  dsimp only
  sl_unfold_words
  rw [View.canon_unit_zero hz]
  simp only [View.readAt_eq_ld, harg2.read_unread, harg5.read_unread, harg12.read_unread, View.ld_unit_zero (S := S512x512) hz, View.ld_unit_zero (S := S64x512) hz, View.ld_unit_zero (S := S512x64) hz]

/-! ## The output block at a last step -/

/-- A 512 × 2112 block put together from its first 1536 columns and its last 576. -/
def join (a : Vec F S512x1536 .f32) (b : Vec F S512x576 .f32) : Vec F S512x2112 .f32 := fun y =>
  if h : (y 1).val < 1536 then a (ix2 (⟨(y 0).val, idx2_lt0 y⟩ : Fin 512) (⟨(y 1).val, h⟩ : Fin 1536))
  else b (ix2 (⟨(y 0).val, idx2_lt0 y⟩ : Fin 512) (⟨(y 1).val - 1536, by have := idx2_lt1 y; omega⟩ : Fin 576))

/-- The two stores into the output block at a last step: the second column range (stored last), then the first,
    each computed from the running sums as this step has just updated them. -/
theorem piecesC (c : Dev nD) (i : grid0.Coords) (arg2 : Memref sig .tc .vmem S512x512 .f32) (harg2 : arg2.IsWhole) (arg3 : Memref sig .tc .vmem S2112x512 .f32) (harg3 : arg3.IsWhole) (arg4 : Memref sig .tc .vmem S64x512 .f32) (harg4 : arg4.IsWhole) (arg5 : Memref sig .tc .vmem S64x512 .f32) (harg5 : arg5.IsWhole) (arg6 : Memref sig .tc .vmem S1x2112 .f32) (harg6 : arg6.IsWhole) (arg7 : Memref sig .tc .vmem S1536x64 .f32) (harg7 : arg7.IsWhole) (arg8 : Memref sig .tc .vmem S576x64 .f32) (harg8 : arg8.IsWhole) (arg9 : Memref sig .tc .vmem S512x2112 .f32) (harg9 : arg9.IsWhole) (arg10 : Memref sig .tc .vmem S512x2112 .f32) (harg10 : arg10.IsWhole) (arg11 : Memref sig .tc .vmem S512x64 .f32) (harg11 : arg11.IsWhole) (arg12 : Memref sig .tc .vmem S512x64 .f32) (harg12 : arg12.IsWhole) (hc0 : ¬cond0_0 i) (hc1 : cond0_1 i) (x0 : Vec F S512x512 .f32) (x1 : Vec F S2112x512 .f32) (x2 : Vec F S64x512 .f32) (x3 : Vec F S64x512 .f32) (x4 : Vec F S1x2112 .f32) (x5 : Vec F S1536x64 .f32) (x6 : Vec F S576x64 .f32) (xs0 : Vec F S512x2112 .f32) (xs1 : Vec F S512x64 .f32) (xs2 : Vec F S512x64 .f32) :
    (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).1
      = [⟨Rect.unit (s := S512x2112) ![0, 1536] S512x576.size inb_S512x2112_S512x576_0_1536,
            k0_pay4 (k0_pay1 (k0_pay11 x0 x3 xs2)) x6 (k0_pay9 x0 x1 xs0) x4⟩,
         ⟨Rect.unit (s := S512x2112) ![0, 0] S512x1536.size inb_S512x2112_S512x1536_0_0,
            k0_pay3 (k0_pay10 x0 x2 xs1) x5 (k0_pay9 x0 x1 xs0) x4⟩] := by
  unfold kernelRun0_C
  dsimp only
  sl_unfold_words
  simp only [View.readAt_eq_ld, harg2.read_unread, harg3.read_unread, harg4.read_unread, harg5.read_unread,
    harg6.read_unread, harg7.read_unread, harg8.read_unread, harg10.read_unread, harg11.read_unread, harg12.read_unread,
    View.readCov_unit_zero (S := S512x2112) _ hz, View.readCov_unit_zero (S := S512x64) _ hz,
    View.ld_unit_zero (S := S512x512) hz, View.ld_unit_zero (S := S2112x512) hz, View.ld_unit_zero (S := S64x512) hz,
    View.ld_unit_zero (S := S512x2112) hz, View.ld_unit_zero (S := S512x64) hz, View.ld_unit_zero (S := S1x2112) hz,
    View.ld_unit_zero (S := S1536x64) hz, View.ld_unit_zero (S := S576x64) hz]

/-- What a last step leaves in the output block. -/
theorem oC (c : Dev nD) (i : grid0.Coords) (arg2 : Memref sig .tc .vmem S512x512 .f32) (harg2 : arg2.IsWhole) (arg3 : Memref sig .tc .vmem S2112x512 .f32) (harg3 : arg3.IsWhole) (arg4 : Memref sig .tc .vmem S64x512 .f32) (harg4 : arg4.IsWhole) (arg5 : Memref sig .tc .vmem S64x512 .f32) (harg5 : arg5.IsWhole) (arg6 : Memref sig .tc .vmem S1x2112 .f32) (harg6 : arg6.IsWhole) (arg7 : Memref sig .tc .vmem S1536x64 .f32) (harg7 : arg7.IsWhole) (arg8 : Memref sig .tc .vmem S576x64 .f32) (harg8 : arg8.IsWhole) (arg9 : Memref sig .tc .vmem S512x2112 .f32) (harg9 : arg9.IsWhole) (arg10 : Memref sig .tc .vmem S512x2112 .f32) (harg10 : arg10.IsWhole) (arg11 : Memref sig .tc .vmem S512x64 .f32) (harg11 : arg11.IsWhole) (arg12 : Memref sig .tc .vmem S512x64 .f32) (harg12 : arg12.IsWhole) (hc0 : ¬cond0_0 i) (hc1 : cond0_1 i) (x0 : Vec F S512x512 .f32) (x1 : Vec F S2112x512 .f32) (x2 : Vec F S64x512 .f32) (x3 : Vec F S64x512 .f32) (x4 : Vec F S1x2112 .f32) (x5 : Vec F S1536x64 .f32) (x6 : Vec F S576x64 .f32) (xs0 : Vec F S512x2112 .f32) (xs1 : Vec F S512x64 .f32) (xs2 : Vec F S512x64 .f32) :
    out0_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2
      = join (k0_pay3 (k0_pay10 x0 x2 xs1) x5 (k0_pay9 x0 x1 xs0) x4)
          (k0_pay4 (k0_pay1 (k0_pay11 x0 x3 xs2)) x6 (k0_pay9 x0 x1 xs0) x4) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  funext y
  have hcov := cover0_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 y
  rw [piecesC] at hcov ⊢
  refine View.canon_apply_of_pieces _ _ ?_ y hcov
  intro p hp x
  simp only [List.mem_cons, List.mem_singleton, List.not_mem_nil, or_false] at hp
  rcases hp with rfl | rfl
  · show k0_pay4 _ _ _ _ x = _
    unfold join
    have h1 : ¬ (((Rect.unit (s := S512x2112) ![0, 1536] S512x576.size inb_S512x2112_S512x576_0_1536).emb x) 1).val < 1536 := by
      show ¬ (1536 + 1 * (x 1).val < 1536)
      omega
    rw [dif_neg h1]
    refine congrArg _ (funext fun a => Fin.ext ?_)
    match a with
    | ⟨0, _⟩ => show (x 0).val = 0 + 1 * (x 0).val; omega
    | ⟨1, _⟩ => show (x 1).val = 1536 + 1 * (x 1).val - 1536; omega
  · show k0_pay3 _ _ _ _ x = _
    unfold join
    have hx1 : (x 1).val < 1536 := (x 1).isLt
    have h1 : (((Rect.unit (s := S512x2112) ![0, 0] S512x1536.size inb_S512x2112_S512x1536_0_0).emb x) 1).val < 1536 := by
      show 0 + 1 * (x 1).val < 1536
      omega
    rw [dif_pos h1]
    refine congrArg _ (funext fun a => Fin.ext ?_)
    match a with
    | ⟨0, _⟩ => show (x 0).val = 0 + 1 * (x 0).val; omega
    | ⟨1, _⟩ => show (x 1).val = 0 + 1 * (x 1).val; omega

end Cert.KernelIdeal.Pieces

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.Payloads.lean ====
/-
  The kernel body's arithmetic read at an entry, over the extended reals.

  One reduction step adds to each running sum a product of this step's 512 columns of x with 512 columns of a
  weight matrix: at entry (p, o) that is Σ_{j < 512} x(p, j) · w(o, j), the weight block being transposed before
  the product. The last step's output adds, to (running sum + bias), a product over the 64 rank rows:
  Σ_{r < 64} s(p, r) · b(o, r). Changes of float format are the identity here, and the zero blocks read 0.
-/
import proofs.«161944_j79800492359938_1_alg».proof.Proof.Gen.KernelIdeal.Skeleton
import proofs.«161944_j79800492359938_1_alg».proof.Proof.LibDot
import Idealize.ShloMosaic.Lib.Pipeline.Value
import Idealize.ShloMosaic.Lib.ValueIdx
import Idealize.ShloMosaic.PureOps.Ideal.Laws

noncomputable section

namespace Cert.KernelIdeal.Payloads

open Cert.KernelIdeal Cert.KernelIdeal.Gen Idealize.ShloMosaic Idealize.ShloMosaic.ValueIdx

/-- The zero block a first step stores into the main running sum reads 0. -/
theorem pay5_apply (y : S512x2112.Idx) : k0_pay5 (F := Ideal) y = 0 := by
  unfold k0_pay5
  simp only [shapeCast_self]
  show Ideal.ofBits .f32 0x00000000#32 = 0
  exact Ideal.ofBits_zero_f32

/-- The zero block a first step stores into the first down-projection's running sum reads 0. -/
theorem pay6_apply (y : S512x64.Idx) : k0_pay6 (F := Ideal) y = 0 := by
  unfold k0_pay6
  simp only [shapeCast_self]
  show Ideal.ofBits .f32 0x00000000#32 = 0
  exact Ideal.ofBits_zero_f32

/-- The zero block a first step stores into the second down-projection's running sum reads 0. -/
theorem pay7_apply (y : S512x64.Idx) : k0_pay7 (F := Ideal) y = 0 := by
  unfold k0_pay7
  simp only [shapeCast_self]
  show Ideal.ofBits .f32 0x00000000#32 = 0
  exact Ideal.ofBits_zero_f32

/-- A weight block of 512 columns, transposed, read at (column j, row o): the block at (o, j). -/
theorem transpose_W (w : FVec Ideal S2112x512 .bf16) (j : Fin 512) (o : Fin 2112) :
    transpose S512x2112 [1, 0] w transposes_S2112x512_p1_0_S512x2112 (ix2 j o) = w (ix2 o j) :=
  transpose_apply [1, 0] w transposes_S2112x512_p1_0_S512x2112 (ix2 j o) (ix2 o j)
    (fun b => by match b with | ⟨0, _⟩ => rfl | ⟨1, _⟩ => rfl)

/-- A rank block of 512 columns, transposed, read at (column j, row r): the block at (r, j). -/
theorem transpose_A (a : FVec Ideal S64x512 .bf16) (j : Fin 512) (r : Fin 64) :
    transpose S512x64 [1, 0] a transposes_S64x512_p1_0_S512x64 (ix2 j r) = a (ix2 r j) :=
  transpose_apply [1, 0] a transposes_S64x512_p1_0_S512x64 (ix2 j r) (ix2 r j)
    (fun b => by match b with | ⟨0, _⟩ => rfl | ⟨1, _⟩ => rfl)

/-- The main running sum after a step: what it held plus this step's 512 terms of x · Wᵀ. -/
theorem pay9_apply (x : Vec Ideal S512x512 .f32) (w : Vec Ideal S2112x512 .f32) (acc : Vec Ideal S512x2112 .f32)
    (p : Fin 512) (o : Fin 2112) :
    k0_pay9 x w acc (ix2 p o) = acc (ix2 p o) + ∑ j : Fin 512, x (ix2 p j) * w (ix2 o j) := by
  unfold k0_pay9 k0_pay8
  simp only [shapeCast_self]
  rw [addf_apply]
  congr 1
  refine (Cert.LibDot.matmul_zero_at dot_S512x512_S512x2112_S512x2112_1_0_0_1_n_n rfl rfl rfl rfl rfl rfl none _ _ p o).trans ?_
  refine Finset.sum_congr rfl fun j _ => ?_
  rw [transpose_W]
  rfl

/-- The first down-projection's running sum after a step. -/
theorem pay10_apply (x : Vec Ideal S512x512 .f32) (a : Vec Ideal S64x512 .f32) (acc : Vec Ideal S512x64 .f32)
    (p : Fin 512) (r : Fin 64) :
    k0_pay10 x a acc (ix2 p r) = acc (ix2 p r) + ∑ j : Fin 512, x (ix2 p j) * a (ix2 r j) := by
  unfold k0_pay10 k0_pay8
  simp only [shapeCast_self]
  rw [addf_apply]
  congr 1
  refine (Cert.LibDot.matmul_zero_at dot_S512x512_S512x64_S512x64_1_0_0_1_n_n rfl rfl rfl rfl rfl rfl none _ _ p r).trans ?_
  refine Finset.sum_congr rfl fun j _ => ?_
  rw [transpose_A]
  rfl

/-- The second down-projection's running sum after a step. -/
theorem pay11_apply (x : Vec Ideal S512x512 .f32) (a : Vec Ideal S64x512 .f32) (acc : Vec Ideal S512x64 .f32)
    (p : Fin 512) (r : Fin 64) :
    k0_pay1 (k0_pay11 x a acc) (ix2 p r) = acc (ix2 p r) + ∑ j : Fin 512, x (ix2 p j) * a (ix2 r j) := by
  unfold k0_pay1 k0_pay11 k0_pay8
  simp only [shapeCast_self]
  rw [addf_apply]
  congr 1
  refine (Cert.LibDot.matmul_zero_at dot_S512x512_S512x64_S512x64_1_0_0_1_n_n rfl rfl rfl rfl rfl rfl none _ _ p r).trans ?_
  refine Finset.sum_congr rfl fun j _ => ?_
  rw [transpose_A]
  rfl

/-- (running sum + bias) at entry (p, o): the bias row is broadcast down the 512 rows. -/
theorem pay2_apply (s0 : Vec Ideal S512x2112 .f32) (bias : Vec Ideal S1x2112 .f32) (p : Fin 512) (o : Fin 2112) :
    k0_pay2 s0 bias (ix2 p o) = s0 (ix2 p o) + bias (ix2 (0 : Fin 1) o) := by
  unfold k0_pay2
  simp only [shapeCast_self]
  rw [addf_apply]
  refine congrArg (s0 (ix2 p o) + ·) ?_
  exact broadcastTo_apply bias broadcasts_S1x2112_S512x2112 (ix2 p o) (ix2 (0 : Fin 1) o)
    (fun a => by match a with | ⟨0, _⟩ => rfl | ⟨1, _⟩ => rfl)

/-- The first column range of the output block at (p, o), o < 1536. -/
theorem pay3_apply (s1 : Vec Ideal S512x64 .f32) (b0 : Vec Ideal S1536x64 .f32) (s0 : Vec Ideal S512x2112 .f32)
    (bias : Vec Ideal S1x2112 .f32) (p : Fin 512) (o : Fin 1536) :
    k0_pay3 s1 b0 s0 bias (ix2 p o)
      = (s0 (ix2 p (⟨o.val, by have := o.isLt; omega⟩ : Fin 2112)) + bias (ix2 (0 : Fin 1) (⟨o.val, by have := o.isLt; omega⟩ : Fin 2112)))
        + ∑ r : Fin 64, s1 (ix2 p r) * b0 (ix2 o r) := by
  unfold k0_pay3
  simp only [shapeCast_self]
  rw [addf_apply]
  congr 1
  · exact (extractStridedSlice_apply ![0, 0] (k0_pay2 s0 bias) slices_S512x2112_o0_0_S512x1536 (ix2 p o)
      (ix2 p (⟨o.val, by have := o.isLt; omega⟩ : Fin 2112))
      (fun a => by match a with | ⟨0, _⟩ => exact (Nat.zero_add _).symm | ⟨1, _⟩ => exact (Nat.zero_add _).symm)).trans
      (pay2_apply s0 bias p _)
  · refine (Cert.LibDot.matmul_zero_at dot_S512x64_S64x1536_S512x1536_1_0_0_1_n_n rfl rfl rfl rfl rfl rfl none _ _ p o).trans ?_
    refine Finset.sum_congr rfl fun r _ => ?_
    rw [transpose_apply [1, 0] _ transposes_S1536x64_p1_0_S64x1536 (ix2 r o) (ix2 o r)
      (fun b => by match b with | ⟨0, _⟩ => rfl | ⟨1, _⟩ => rfl)]
    rfl

/-- The second column range of the output block at (p, o), o < 576: column 1536 + o of (running sum + bias). -/
theorem pay4_apply (s2 : Vec Ideal S512x64 .f32) (b1 : Vec Ideal S576x64 .f32) (s0 : Vec Ideal S512x2112 .f32)
    (bias : Vec Ideal S1x2112 .f32) (p : Fin 512) (o : Fin 576) :
    k0_pay4 s2 b1 s0 bias (ix2 p o)
      = (s0 (ix2 p (⟨1536 + o.val, by have := o.isLt; omega⟩ : Fin 2112)) + bias (ix2 (0 : Fin 1) (⟨1536 + o.val, by have := o.isLt; omega⟩ : Fin 2112)))
        + ∑ r : Fin 64, s2 (ix2 p r) * b1 (ix2 o r) := by
  unfold k0_pay4
  simp only [shapeCast_self]
  rw [addf_apply]
  congr 1
  · exact (extractStridedSlice_apply ![0, 1536] (k0_pay2 s0 bias) slices_S512x2112_o0_1536_S512x576 (ix2 p o)
      (ix2 p (⟨1536 + o.val, by have := o.isLt; omega⟩ : Fin 2112))
      (fun a => by match a with | ⟨0, _⟩ => exact (Nat.zero_add _).symm | ⟨1, _⟩ => rfl)).trans
      (pay2_apply s0 bias p _)
  · refine (Cert.LibDot.matmul_zero_at dot_S512x64_S64x576_S512x576_1_0_0_1_n_n rfl rfl rfl rfl rfl rfl none _ _ p o).trans ?_
    refine Finset.sum_congr rfl fun r _ => ?_
    rw [transpose_apply [1, 0] _ transposes_S576x64_p1_0_S64x576 (ix2 r o) (ix2 o r)
      (fun b => by match b with | ⟨0, _⟩ => rfl | ⟨1, _⟩ => rfl)]
    rfl

end Cert.KernelIdeal.Payloads

end
-- ==== Proof.Blocks.lean ====
/-
  Each input block the body finds at a grid point, read back to the argument arrays.

  Point t of the 16 × 14 grid is row block t / 14 and reduction step t % 14. There the body finds:
  rows [512·(t/14), +512) and columns [512·(t%14), +512) of x; all 2112 rows and the same 512 columns of W;
  the same 512 columns of rank rows [0, 64) and of rank rows [64, 128) of A; the whole bias row;
  B[0] whole (1536 × 64) and the first 576 rows of B[1].
-/
import proofs.«161944_j79800492359938_1_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-- Which block of its array each window holds at point t, decided once over the 224 points. -/
theorem idx_facts : ∀ t : Fin cfg0.N,
    win0_0.index t 0 = t.val / 14 ∧ win0_0.index t 1 = t.val % 14 ∧
    win0_1.index t 0 = 0 ∧ win0_1.index t 1 = t.val % 14 ∧
    win0_2.index t 0 = 0 ∧ win0_2.index t 1 = t.val % 14 ∧
    win0_3.index t 0 = 0 ∧ win0_3.index t 1 = t.val % 14 ∧
    win0_4.index t 0 = 0 ∧ win0_4.index t 1 = 0 ∧
    win0_5.index t 0 = 0 ∧ win0_5.index t 1 = 0 ∧
    win0_6.index t 0 = 0 ∧ win0_6.index t 1 = 0 ∧
    win0_7.index t 0 = t.val / 14 ∧ win0_7.index t 1 = 0 :=
  (by decide +kernel : ∀ t : Fin grid0.N, _)

/-! ## The arrays the host prefix prepares -/

/-- Rank rows [0, 64) of A. -/
theorem V_v0 (c : Dev nD) : (V m c main_v0 : (⟨S64x7168, .f32⟩ : BufTy).Contents (Elt F))
    = extractStridedSlice S64x7168 ![0, 0] (m ((c : Thread nD τ).loc main_arg3)) slices_S128x7168_S64x7168_0_0 := by
  dsimp only [V, hostOps0]
  after_results

/-- Rank rows [64, 128) of A. -/
theorem V_v1 (c : Dev nD) : (V m c main_v1 : (⟨S64x7168, .f32⟩ : BufTy).Contents (Elt F))
    = extractStridedSlice S64x7168 ![64, 0] (m ((c : Thread nD τ).loc main_arg3)) slices_S128x7168_S64x7168_64_0 := by
  dsimp only [V, hostOps0]
  after_results

/-- B[0], its leading unit axis dropped. -/
theorem V_v3 (c : Dev nD) : (V m c main_v3 : (⟨S1536x64, .f32⟩ : BufTy).Contents (Elt F))
    = shapeCast S1536x64 (extractStridedSlice S1x1536x64 ![0, 0, 0] (m ((c : Thread nD τ).loc main_arg4)) slices_S2x1536x64_S1x1536x64_0_0_0)
        shapeCasts_S1x1536x64_S1536x64 := by
  dsimp only [V, hostOps0]
  after_results
  rfl

/-- The first 576 rows of B[1], the leading unit axis dropped. -/
theorem V_v5 (c : Dev nD) : (V m c main_v5 : (⟨S576x64, .f32⟩ : BufTy).Contents (Elt F))
    = shapeCast S576x64 (extractStridedSlice S1x576x64 ![1, 0, 0] (m ((c : Thread nD τ).loc main_arg4)) slices_S2x1536x64_S1x576x64_1_0_0)
        shapeCasts_S1x576x64_S576x64 := by
  dsimp only [V, hostOps0]
  after_results
  rfl

/-- The bias as a 1 × 2112 row. -/
theorem V_v6 (c : Dev nD) : (V m c main_v6 : (⟨S1x2112, .f32⟩ : BufTy).Contents (Elt F))
    = shapeCast S1x2112 (m ((c : Thread nD τ).loc main_arg2)) shapeCasts_S2112_S1x2112 := by
  dsimp only [V, hostOps0]
  after_results
  rfl

/-! ## The blocks -/

/-- x's block. -/
theorem blk0 (c : Dev nD) (t : Fin cfg0.N) (p j : Fin 512) :
    (iblk m c 0 t : Vec F S512x512 .f32) (ix2 p j)
      = m ((c : Thread nD τ).loc main_arg0)
          (ix2 (⟨512 * (t.val / 14) + p.val, by have := t.isLt; have hN : cfg0.N = 224 := N_0; have := p.isLt; omega⟩ : Fin 8192)
               (⟨512 * (t.val % 14) + j.val, by have := j.isLt; omega⟩ : Fin 7168)) := by
  obtain ⟨h0, h1, -⟩ := idx_facts t
  unfold iblk
  rw [View.read_apply]
  show V m c main_arg0 _ = _
  rw [V_main_arg0]
  refine congrArg _ (funext fun a => Fin.ext ?_)
  match a with
  | ⟨0, _⟩ => show win0_0.index t 0 * 512 + 1 * p.val = 512 * (t.val / 14) + p.val; rw [h0]; omega
  | ⟨1, _⟩ => show win0_0.index t 1 * 512 + 1 * j.val = 512 * (t.val % 14) + j.val; rw [h1]; omega

/-- W's block. -/
theorem blk1 (c : Dev nD) (t : Fin cfg0.N) (o : Fin 2112) (j : Fin 512) :
    (iblk m c 1 t : Vec F S2112x512 .f32) (ix2 o j)
      = m ((c : Thread nD τ).loc main_arg1)
          (ix2 o (⟨512 * (t.val % 14) + j.val, by have := j.isLt; omega⟩ : Fin 7168)) := by
  obtain ⟨-, -, h0, h1, -⟩ := idx_facts t
  unfold iblk
  rw [View.read_apply]
  show V m c main_arg1 _ = _
  rw [V_main_arg1]
  refine congrArg _ (funext fun a => Fin.ext ?_)
  match a with
  | ⟨0, _⟩ => show win0_1.index t 0 * 2112 + 1 * o.val = o.val; rw [h0]; omega
  | ⟨1, _⟩ => show win0_1.index t 1 * 512 + 1 * j.val = 512 * (t.val % 14) + j.val; rw [h1]; omega

/-- The first slice's rank rows. -/
theorem blk2 (c : Dev nD) (t : Fin cfg0.N) (r : Fin 64) (j : Fin 512) :
    (iblk m c 2 t : Vec F S64x512 .f32) (ix2 r j)
      = m ((c : Thread nD τ).loc main_arg3)
          (ix2 (⟨r.val, by have := r.isLt; omega⟩ : Fin 128) (⟨512 * (t.val % 14) + j.val, by have := j.isLt; omega⟩ : Fin 7168)) := by
  obtain ⟨-, -, -, -, h0, h1, -⟩ := idx_facts t
  unfold iblk
  rw [View.read_apply]
  show V m c main_v0 _ = _
  rw [V_v0]
  refine extractStridedSlice_apply (s := S128x7168) (t := S64x7168) ![0, 0] _ slices_S128x7168_S64x7168_0_0 _ _ (fun a => ?_)
  match a with
  | ⟨0, _⟩ => show r.val = 0 + (win0_2.index t 0 * 64 + 1 * r.val); rw [h0]; omega
  | ⟨1, _⟩ => show 512 * (t.val % 14) + j.val = 0 + (win0_2.index t 1 * 512 + 1 * j.val); rw [h1]; omega

/-- The second slice's rank rows. -/
theorem blk3 (c : Dev nD) (t : Fin cfg0.N) (r : Fin 64) (j : Fin 512) :
    (iblk m c 3 t : Vec F S64x512 .f32) (ix2 r j)
      = m ((c : Thread nD τ).loc main_arg3)
          (ix2 (⟨64 + r.val, by have := r.isLt; omega⟩ : Fin 128) (⟨512 * (t.val % 14) + j.val, by have := j.isLt; omega⟩ : Fin 7168)) := by
  obtain ⟨-, -, -, -, -, -, h0, h1, -⟩ := idx_facts t
  unfold iblk
  rw [View.read_apply]
  show V m c main_v1 _ = _
  rw [V_v1]
  refine extractStridedSlice_apply (s := S128x7168) (t := S64x7168) ![64, 0] _ slices_S128x7168_S64x7168_64_0 _ _ (fun a => ?_)
  match a with
  | ⟨0, _⟩ => show 64 + r.val = 64 + (win0_3.index t 0 * 64 + 1 * r.val); rw [h0]; omega
  | ⟨1, _⟩ => show 512 * (t.val % 14) + j.val = 0 + (win0_3.index t 1 * 512 + 1 * j.val); rw [h1]; omega

/-- The bias row. -/
theorem blk4 (c : Dev nD) (t : Fin cfg0.N) (o : Fin 2112) :
    (iblk m c 4 t : Vec F S1x2112 .f32) (ix2 (0 : Fin 1) o) = m ((c : Thread nD τ).loc main_arg2) (ix1 o) := by
  obtain ⟨-, -, -, -, -, -, -, -, h0, h1, -⟩ := idx_facts t
  unfold iblk
  rw [View.read_apply]
  show V m c main_v6 _ = _
  rw [V_v6]
  refine shapeCast_apply _ shapeCasts_S2112_S1x2112 _ (ix1 o) ?_
  rw [Shape.rowMajor_val_one, Shape.rowMajor_val_two]
  show o.val = (win0_4.index t 0 * 1 + 1 * 0) * 2112 + (win0_4.index t 1 * 2112 + 1 * o.val)
  rw [h0, h1]; omega

/-- B[0]. -/
theorem blk5 (c : Dev nD) (t : Fin cfg0.N) (o : Fin 1536) (r : Fin 64) :
    (iblk m c 5 t : Vec F S1536x64 .f32) (ix2 o r) = m ((c : Thread nD τ).loc main_arg4) (ix3 (0 : Fin 2) o r) := by
  obtain ⟨-, -, -, -, -, -, -, -, -, -, h0, h1, -⟩ := idx_facts t
  unfold iblk
  rw [View.read_apply]
  show V m c main_v3 _ = _
  rw [V_v3]
  refine (shapeCast_apply _ shapeCasts_S1x1536x64_S1536x64 _ (ix3 (0 : Fin 1) o r) ?_).trans ?_
  · rw [Shape.rowMajor_val_three, Shape.rowMajor_val_two]
    show (0 * 1536 + o.val) * 64 + r.val = (win0_5.index t 0 * 1536 + 1 * o.val) * 64 + (win0_5.index t 1 * 64 + 1 * r.val)
    rw [h0, h1]; omega
  · refine extractStridedSlice_apply (s := S2x1536x64) (t := S1x1536x64) ![0, 0, 0] _ slices_S2x1536x64_S1x1536x64_0_0_0 _ _ (fun a => ?_)
    match a with
    | ⟨0, _⟩ => rfl
    | ⟨1, _⟩ => exact (Nat.zero_add _).symm
    | ⟨2, _⟩ => exact (Nat.zero_add _).symm

/-- The first 576 rows of B[1]. -/
theorem blk6 (c : Dev nD) (t : Fin cfg0.N) (o : Fin 576) (r : Fin 64) :
    (iblk m c 6 t : Vec F S576x64 .f32) (ix2 o r)
      = m ((c : Thread nD τ).loc main_arg4) (ix3 (1 : Fin 2) (⟨o.val, by have := o.isLt; omega⟩ : Fin 1536) r) := by
  obtain ⟨-, -, -, -, -, -, -, -, -, -, -, -, h0, h1, -⟩ := idx_facts t
  unfold iblk
  rw [View.read_apply]
  show V m c main_v5 _ = _
  rw [V_v5]
  refine (shapeCast_apply _ shapeCasts_S1x576x64_S576x64 _ (ix3 (0 : Fin 1) o r) ?_).trans ?_
  · rw [Shape.rowMajor_val_three, Shape.rowMajor_val_two]
    show (0 * 576 + o.val) * 64 + r.val = (win0_6.index t 0 * 576 + 1 * o.val) * 64 + (win0_6.index t 1 * 64 + 1 * r.val)
    rw [h0, h1]; omega
  · refine extractStridedSlice_apply (s := S2x1536x64) (t := S1x576x64) ![1, 0, 0] _ slices_S2x1536x64_S1x576x64_1_0_0 _ _ (fun a => ?_)
    match a with
    | ⟨0, _⟩ => rfl
    | ⟨1, _⟩ => exact (Nat.zero_add _).symm
    | ⟨2, _⟩ => exact (Nat.zero_add _).symm

end Cert.KernelIdeal.Blocks

end
-- ==== Proof.SumBlocks.lean ====
/-
  A finite sum over an index range of length a * b, regrouped into a consecutive blocks of b terms.
  This is the only rearrangement the certificate needs: the kernel adds up the contraction axis
  fourteen blocks of 512 at a time, the reference all 7168 terms at once; in a commutative additive
  monoid (the extended reals are one) both are the same sum, with no finiteness assumed.
-/
import Mathlib.Algebra.BigOperators.Fin
import Mathlib.Logic.Equiv.Fin.Basic

namespace Cert.SumBlocks

open Finset

/-- Position `b * k + j` of block `k`, offset `j`, inside a range of length `n = a * b`. -/
def at' {n a b : ℕ} (h : n = a * b) (k : Fin a) (j : Fin b) : Fin n :=
  ⟨b * k.val + j.val, by
    subst h
    calc b * k.val + j.val < b * k.val + b := Nat.add_lt_add_left j.isLt _
      _ = b * (k.val + 1) := (Nat.mul_succ _ _).symm
      _ ≤ b * a := Nat.mul_le_mul_left _ k.isLt
      _ = a * b := Nat.mul_comm _ _⟩

@[simp] theorem at'_val {n a b : ℕ} (h : n = a * b) (k : Fin a) (j : Fin b) :
    (at' h k j).val = b * k.val + j.val := rfl

/-- The whole sum is the sum over blocks of the sums inside each block. -/
theorem sum_eq_blocks {M : Type*} [AddCommMonoid M] {n a b : ℕ} (h : n = a * b) (f : Fin n → M) :
    ∑ i, f i = ∑ k : Fin a, ∑ j : Fin b, f (at' h k j) := by
  subst h
  rw [← Equiv.sum_comp finProdFinEquiv f, Fintype.sum_prod_type]
  refine Finset.sum_congr rfl fun k _ => Finset.sum_congr rfl fun j _ => ?_
  congr 1
  apply Fin.ext
  simp [finProdFinEquiv, at', Nat.add_comm]

/-! ## The running total over the blocks

  A reduction over `a` steps keeps a running total: after step `k` it holds the terms of steps 0, …, k. -/

/-- The sum of the terms of steps 0, …, k (steps at or past `a` contribute nothing). -/
def upTo {M : Type*} [AddCommMonoid M] {a : ℕ} (f : Fin a → M) (k : ℕ) : M :=
  ∑ q ∈ Finset.range (k + 1), if h : q < a then f ⟨q, h⟩ else 0

/-- After the first step the total is that step's term. -/
theorem upTo_zero {M : Type*} [AddCommMonoid M] {a : ℕ} (f : Fin a → M) (h : 0 < a) : upTo f 0 = f ⟨0, h⟩ := by
  unfold upTo
  rw [Finset.sum_range_one, dif_pos h]

/-- One more step adds its term. -/
theorem upTo_succ {M : Type*} [AddCommMonoid M] {a : ℕ} (f : Fin a → M) (k : ℕ) (h : k + 1 < a) :
    upTo f (k + 1) = upTo f k + f ⟨k + 1, h⟩ := by
  unfold upTo
  rw [Finset.sum_range_succ, dif_pos h]

/-- After the last step the total is the sum of all terms. -/
theorem upTo_all {M : Type*} [AddCommMonoid M] {a : ℕ} (f : Fin a → M) (k : ℕ) (h : k + 1 = a) :
    upTo f k = ∑ q, f q := by
  subst h
  unfold upTo
  rw [Finset.sum_range]
  exact Finset.sum_congr rfl fun q _ => dif_pos q.isLt

end Cert.SumBlocks
-- ==== Proof.Spec.lean ====
/-
  What both programs compute, as one function of the five argument arrays over the extended reals.

  For a token row s and an output column o:
    base s o  = Σ_h x[s,h] · W[o,h]                       (the replicated linear layer, without bias)
    down s r  = Σ_h x[s,h] · A[r,h],  r < 128             (both LoRA down-projections, stacked)
    up0 s o   = Σ_{r<64} down s r        · B[0,o,r],  o < 1536
    up1 s o   = Σ_{r<64} down s (64 + r) · B[1,o,r],  o < 576
    G[s,o]    = (base s o + bias[o]) + up0 s o            for o < 1536
    G[s,o]    = (base s o + bias[o]) + up1 s (o - 1536)   for 1536 ≤ o < 2112
  The grouping of the three summands is the one both programs use, so no associativity is needed
  between them; only the inner sums over h are regrouped (by blocks of 512) on the kernel's side.
-/
import Idealize.ShloMosaic.PureOps.Ideal
import Idealize.ShloMosaic.Lib.ValueIdx

noncomputable section

namespace Cert.Spec

open Idealize.ShloMosaic Idealize.ShloMosaic.ValueIdx

abbrev SX : Shape := ⟨2, ![8192, 7168]⟩
abbrev SW : Shape := ⟨2, ![2112, 7168]⟩
abbrev SBias : Shape := ⟨1, ![2112]⟩
abbrev SA : Shape := ⟨2, ![128, 7168]⟩
abbrev SB : Shape := ⟨3, ![2, 1536, 64]⟩
abbrev SOut : Shape := ⟨2, ![8192, 2112]⟩

/-- Entry (s, o) of x · Wᵀ. -/
def base (x : SX.Idx → EReal) (W : SW.Idx → EReal) (s : Fin 8192) (o : Fin 2112) : EReal :=
  ∑ h : Fin 7168, x (ix2 s h) * W (ix2 o h)

/-- Entry (s, r) of x · Aᵀ, over all 128 stacked rank rows. -/
def down (x : SX.Idx → EReal) (A : SA.Idx → EReal) (s : Fin 8192) (r : Fin 128) : EReal :=
  ∑ h : Fin 7168, x (ix2 s h) * A (ix2 r h)

/-- Rank row r of the first slice, as a row of the stacked A. -/
def lo (r : Fin 64) : Fin 128 := ⟨r.val, by have := r.isLt; omega⟩
/-- Rank row r of the second slice, as a row of the stacked A. -/
def hi (r : Fin 64) : Fin 128 := ⟨64 + r.val, by have := r.isLt; omega⟩

/-- The first slice's up-projection at (s, o), o < 1536. -/
def up0 (x : SX.Idx → EReal) (A : SA.Idx → EReal) (B : SB.Idx → EReal) (s : Fin 8192) (o : Fin 1536) : EReal :=
  ∑ r : Fin 64, down x A s (lo r) * B (ix3 (0 : Fin 2) o r)

/-- A column of the second slice, as a row of the padded B. -/
def pad (o : Fin 576) : Fin 1536 := ⟨o.val, by have := o.isLt; omega⟩

/-- The second slice's up-projection at (s, o), o < 576. -/
def up1 (x : SX.Idx → EReal) (A : SA.Idx → EReal) (B : SB.Idx → EReal) (s : Fin 8192) (o : Fin 576) : EReal :=
  ∑ r : Fin 64, down x A s (hi r) * B (ix3 (1 : Fin 2) (pad o) r)

/-- The result array. -/
def G (x : SX.Idx → EReal) (W : SW.Idx → EReal) (bias : SBias.Idx → EReal) (A : SA.Idx → EReal)
    (B : SB.Idx → EReal) : SOut.Idx → EReal := fun i =>
  if h : (i 1).val < 1536 then
    (base x W (i 0) (i 1) + bias (ix1 (i 1))) + up0 x A B (i 0) ⟨(i 1).val, h⟩
  else
    (base x W (i 0) (i 1) + bias (ix1 (i 1))) + up1 x A B (i 0) ⟨(i 1).val - 1536, by have := idx2_lt1 i; omega⟩

/-- G in the first column range. -/
theorem G_lt (x : SX.Idx → EReal) (W : SW.Idx → EReal) (bias : SBias.Idx → EReal) (A : SA.Idx → EReal)
    (B : SB.Idx → EReal) (s : Fin 8192) (o : Fin 2112) (h : o.val < 1536) :
    G x W bias A B (ix2 s o) = (base x W s o + bias (ix1 o)) + up0 x A B s ⟨o.val, h⟩ := by
  unfold G
  rw [dif_pos (show ((ix2 s o : SOut.Idx) 1).val < 1536 from h)]

/-- G in the second column range. -/
theorem G_ge (x : SX.Idx → EReal) (W : SW.Idx → EReal) (bias : SBias.Idx → EReal) (A : SA.Idx → EReal)
    (B : SB.Idx → EReal) (s : Fin 8192) (o : Fin 2112) (h : ¬ o.val < 1536) :
    G x W bias A B (ix2 s o)
      = (base x W s o + bias (ix1 o)) + up1 x A B s ⟨o.val - 1536, by have := o.isLt; omega⟩ := by
  unfold G
  rw [dif_neg (show ¬ ((ix2 s o : SOut.Idx) 1).val < 1536 from h)]

end Cert.Spec

end
-- ==== Proof.Sums.lean ====
/-
  The running sums, point by point, and what the last reduction step writes.

  Point t is row block i = t / 14 and reduction step k = t % 14. Write, for a row p of the block, a column o of W
  and a rank row q of A,
    termW i p o k = Σ_{j < 512} x[512 i + p, 512 k + j] · W[o, 512 k + j]
    termA i p q k = Σ_{j < 512} x[512 i + p, 512 k + j] · A[q, 512 k + j].
  By induction on the point, after point t the three running sums hold, at (p, o) and (p, r), the totals of these
  terms over the steps 0, …, k of the row block: a first step starts from zero, every other step adds its term to
  what the step before left. After step 13 the totals are the full sums over all 7168 columns.
-/
import proofs.«161944_j79800492359938_1_alg».proof.Proof.Gen.KernelIdeal.Value
import proofs.«161944_j79800492359938_1_alg».proof.Proof.Pieces
import proofs.«161944_j79800492359938_1_alg».proof.Proof.Payloads
import proofs.«161944_j79800492359938_1_alg».proof.Proof.Blocks
import proofs.«161944_j79800492359938_1_alg».proof.Proof.SumBlocks
import proofs.«161944_j79800492359938_1_alg».proof.Proof.Spec

set_option maxRecDepth 16384

noncomputable section

namespace Cert.KernelIdeal.Sums

open Cert.KernelIdeal Cert.KernelIdeal.Gen Idealize.ShloMosaic Idealize.ShloMosaic.TcCoe Idealize.SL.Sem
open Idealize.ShloMosaic.ValueIdx
open Cert.SumBlocks (upTo)

variable (m : (ℓ : Loc nD τ sig) → Buf (Elt Ideal) ℓ)

/-! ## Names: the argument arrays and the blocks at a point, at their literal types -/

abbrev aX (c : Dev nD) : Cert.Spec.SX.Idx → EReal := m ((c : Thread nD τ).loc main_arg0)
abbrev aW (c : Dev nD) : Cert.Spec.SW.Idx → EReal := m ((c : Thread nD τ).loc main_arg1)
abbrev aBias (c : Dev nD) : Cert.Spec.SBias.Idx → EReal := m ((c : Thread nD τ).loc main_arg2)
abbrev aA (c : Dev nD) : Cert.Spec.SA.Idx → EReal := m ((c : Thread nD τ).loc main_arg3)
abbrev aB (c : Dev nD) : Cert.Spec.SB.Idx → EReal := m ((c : Thread nD τ).loc main_arg4)

abbrev bX (c : Dev nD) (t : Fin cfg0.N) : Vec Ideal S512x512 .f32 := iblk m c 0 t
abbrev bW (c : Dev nD) (t : Fin cfg0.N) : Vec Ideal S2112x512 .f32 := iblk m c 1 t
abbrev bA0 (c : Dev nD) (t : Fin cfg0.N) : Vec Ideal S64x512 .f32 := iblk m c 2 t
abbrev bA1 (c : Dev nD) (t : Fin cfg0.N) : Vec Ideal S64x512 .f32 := iblk m c 3 t
abbrev bBias (c : Dev nD) (t : Fin cfg0.N) : Vec Ideal S1x2112 .f32 := iblk m c 4 t
abbrev bB0 (c : Dev nD) (t : Fin cfg0.N) : Vec Ideal S1536x64 .f32 := iblk m c 5 t
abbrev bB1 (c : Dev nD) (t : Fin cfg0.N) : Vec Ideal S576x64 .f32 := iblk m c 6 t

/-- The three running sums after point n. -/
abbrev s0 (c : Dev nD) (n : ℕ) (hn : n < cfg0.N) : Vec Ideal S512x2112 .f32 := (outsAt0 m c n hn).2.1
abbrev s1 (c : Dev nD) (n : ℕ) (hn : n < cfg0.N) : Vec Ideal S512x64 .f32 := (outsAt0 m c n hn).2.2.1
abbrev s2 (c : Dev nD) (n : ℕ) (hn : n < cfg0.N) : Vec Ideal S512x64 .f32 := (outsAt0 m c n hn).2.2.2

theorem hN : cfg0.N = 224 := N_0

/-- The row block of point n. -/
def iOf (n : ℕ) (hn : n < cfg0.N) : Fin 16 := ⟨n / 14, by have := hN; omega⟩
/-- The reduction step of point n. -/
def kOf (n : ℕ) : Fin 14 := ⟨n % 14, Nat.mod_lt _ (by decide)⟩
/-- Row p of row block i, as a row of x. -/
def row (i : Fin 16) (p : Fin 512) : Fin 8192 := ⟨512 * i.val + p.val, by have := i.isLt; have := p.isLt; omega⟩
/-- Column j of step k, as a column of x, W and A. -/
abbrev col (k : Fin 14) (j : Fin 512) : Fin 7168 := Cert.SumBlocks.at' (show 7168 = 14 * 512 from rfl) k j

/-- Step k's 512 terms of x · Wᵀ at (row p of block i, o). -/
def termW (c : Dev nD) (i : Fin 16) (p : Fin 512) (o : Fin 2112) (k : Fin 14) : EReal :=
  ∑ j : Fin 512, aX m c (ix2 (row i p) (col k j)) * aW m c (ix2 o (col k j))

/-- Step k's 512 terms of x · Aᵀ at (row p of block i, q). -/
def termA (c : Dev nD) (i : Fin 16) (p : Fin 512) (q : Fin 128) (k : Fin 14) : EReal :=
  ∑ j : Fin 512, aX m c (ix2 (row i p) (col k j)) * aA m c (ix2 q (col k j))

/-- All fourteen steps together are the whole row of x · Wᵀ. -/
theorem sumW (c : Dev nD) (i : Fin 16) (p : Fin 512) (o : Fin 2112) :
    ∑ k : Fin 14, termW m c i p o k = Cert.Spec.base (aX m c) (aW m c) (row i p) o := by
  unfold termW Cert.Spec.base
  exact (Cert.SumBlocks.sum_eq_blocks (show 7168 = 14 * 512 from rfl)
    (fun h => aX m c (ix2 (row i p) h) * aW m c (ix2 o h))).symm

/-- All fourteen steps together are the whole row of x · Aᵀ. -/
theorem sumA (c : Dev nD) (i : Fin 16) (p : Fin 512) (q : Fin 128) :
    ∑ k : Fin 14, termA m c i p q k = Cert.Spec.down (aX m c) (aA m c) (row i p) q := by
  unfold termA Cert.Spec.down
  exact (Cert.SumBlocks.sum_eq_blocks (show 7168 = 14 * 512 from rfl)
    (fun h => aX m c (ix2 (row i p) h) * aA m c (ix2 q h))).symm

/-! ## The blocks at point t, in these names -/

theorem bX_apply (c : Dev nD) (t : Fin cfg0.N) (p j : Fin 512) :
    bX m c t (ix2 p j) = aX m c (ix2 (row (iOf t.val t.isLt) p) (col (kOf t.val) j)) := Blocks.blk0 m c t p j
theorem bW_apply (c : Dev nD) (t : Fin cfg0.N) (o : Fin 2112) (j : Fin 512) :
    bW m c t (ix2 o j) = aW m c (ix2 o (col (kOf t.val) j)) := Blocks.blk1 m c t o j
theorem bA0_apply (c : Dev nD) (t : Fin cfg0.N) (r : Fin 64) (j : Fin 512) :
    bA0 m c t (ix2 r j) = aA m c (ix2 (Cert.Spec.lo r) (col (kOf t.val) j)) := Blocks.blk2 m c t r j
theorem bA1_apply (c : Dev nD) (t : Fin cfg0.N) (r : Fin 64) (j : Fin 512) :
    bA1 m c t (ix2 r j) = aA m c (ix2 (Cert.Spec.hi r) (col (kOf t.val) j)) := Blocks.blk3 m c t r j
theorem bBias_apply (c : Dev nD) (t : Fin cfg0.N) (o : Fin 2112) :
    bBias m c t (ix2 (0 : Fin 1) o) = aBias m c (ix1 o) := Blocks.blk4 m c t o
theorem bB0_apply (c : Dev nD) (t : Fin cfg0.N) (o : Fin 1536) (r : Fin 64) :
    bB0 m c t (ix2 o r) = aB m c (ix3 (0 : Fin 2) o r) := Blocks.blk5 m c t o r
theorem bB1_apply (c : Dev nD) (t : Fin cfg0.N) (o : Fin 576) (r : Fin 64) :
    bB1 m c t (ix2 o r) = aB m c (ix3 (1 : Fin 2) (Cert.Spec.pad o) r) := Blocks.blk6 m c t o r

/-! ## One step adds its term -/

theorem step0 (c : Dev nD) (t : Fin cfg0.N) (acc : Vec Ideal S512x2112 .f32) (p : Fin 512) (o : Fin 2112) :
    k0_pay9 (bX m c t) (bW m c t) acc (ix2 p o)
      = acc (ix2 p o) + termW m c (iOf t.val t.isLt) p o (kOf t.val) := by
  rw [Payloads.pay9_apply]
  unfold termW
  refine congrArg (acc (ix2 p o) + ·) (Finset.sum_congr rfl fun j _ => ?_)
  rw [bX_apply, bW_apply]

theorem step1 (c : Dev nD) (t : Fin cfg0.N) (acc : Vec Ideal S512x64 .f32) (p : Fin 512) (r : Fin 64) :
    k0_pay10 (bX m c t) (bA0 m c t) acc (ix2 p r)
      = acc (ix2 p r) + termA m c (iOf t.val t.isLt) p (Cert.Spec.lo r) (kOf t.val) := by
  rw [Payloads.pay10_apply]
  unfold termA
  refine congrArg (acc (ix2 p r) + ·) (Finset.sum_congr rfl fun j _ => ?_)
  rw [bX_apply, bA0_apply]

theorem step2 (c : Dev nD) (t : Fin cfg0.N) (acc : Vec Ideal S512x64 .f32) (p : Fin 512) (r : Fin 64) :
    k0_pay1 (k0_pay11 (bX m c t) (bA1 m c t) acc) (ix2 p r)
      = acc (ix2 p r) + termA m c (iOf t.val t.isLt) p (Cert.Spec.hi r) (kOf t.val) := by
  rw [Payloads.pay11_apply]
  unfold termA
  refine congrArg (acc (ix2 p r) + ·) (Finset.sum_congr rfl fun j _ => ?_)
  rw [bX_apply, bA1_apply]

/-! ## The recursion over the points, in these names -/

/-- At a first step the running sums are this step's update of the zero blocks. -/
theorem at_first (c : Dev nD) (t : Fin cfg0.N) (h0 : t.val % 14 = 0) :
    s0 m c t.val t.isLt = k0_pay9 (bX m c t) (bW m c t) (k0_pay5 (F := Ideal))
    ∧ s1 m c t.val t.isLt = k0_pay10 (bX m c t) (bA0 m c t) (k0_pay6 (F := Ideal))
    ∧ s2 m c t.val t.isLt = k0_pay1 (k0_pay11 (bX m c t) (bA1 m c t) (k0_pay7 (F := Ideal))) := by
  have h1 : ¬ t.val % 14 = 13 := by omega
  dsimp only [s0, s1, s2]
  rw [outsAt0_A m c t h0 h1]
  dsimp only
  exact ⟨Pieces.sA0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t),
    Pieces.sA1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t),
    Pieces.sA2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)⟩

/-- At every other step they are this step's update of what the point before left. -/
theorem at_later (c : Dev nD) (t : Fin cfg0.N) (h0 : ¬ t.val % 14 = 0) :
    s0 m c t.val t.isLt = k0_pay9 (bX m c t) (bW m c t) (outsAt0 m c (t.val - 1) (Nat.lt_of_le_of_lt (Nat.sub_le _ _) t.isLt)).2.1
    ∧ s1 m c t.val t.isLt = k0_pay10 (bX m c t) (bA0 m c t) (outsAt0 m c (t.val - 1) (Nat.lt_of_le_of_lt (Nat.sub_le _ _) t.isLt)).2.2.1
    ∧ s2 m c t.val t.isLt = k0_pay1 (k0_pay11 (bX m c t) (bA1 m c t) (outsAt0 m c (t.val - 1) (Nat.lt_of_le_of_lt (Nat.sub_le _ _) t.isLt)).2.2.2) := by
  dsimp only [s0, s1, s2]
  by_cases h1 : t.val % 14 = 13
  · rw [outsAt0_C m c t h0 h1]
    dsimp only
    exact ⟨Pieces.sC0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      Pieces.sC1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      Pieces.sC2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩
  · rw [outsAt0_B m c t h0 h1]
    dsimp only
    exact ⟨Pieces.sB0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      Pieces.sB1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      Pieces.sB2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

/-! ## The same, by the point's number -/

theorem step0_n (c : Dev nD) (n : ℕ) (hn : n < cfg0.N) (acc : Vec Ideal S512x2112 .f32) (p : Fin 512) (o : Fin 2112) :
    k0_pay9 (bX m c ⟨n, hn⟩) (bW m c ⟨n, hn⟩) acc (ix2 p o) = acc (ix2 p o) + termW m c (iOf n hn) p o (kOf n) :=
  step0 m c ⟨n, hn⟩ acc p o

theorem step1_n (c : Dev nD) (n : ℕ) (hn : n < cfg0.N) (acc : Vec Ideal S512x64 .f32) (p : Fin 512) (r : Fin 64) :
    k0_pay10 (bX m c ⟨n, hn⟩) (bA0 m c ⟨n, hn⟩) acc (ix2 p r)
      = acc (ix2 p r) + termA m c (iOf n hn) p (Cert.Spec.lo r) (kOf n) :=
  step1 m c ⟨n, hn⟩ acc p r

theorem step2_n (c : Dev nD) (n : ℕ) (hn : n < cfg0.N) (acc : Vec Ideal S512x64 .f32) (p : Fin 512) (r : Fin 64) :
    k0_pay1 (k0_pay11 (bX m c ⟨n, hn⟩) (bA1 m c ⟨n, hn⟩) acc) (ix2 p r)
      = acc (ix2 p r) + termA m c (iOf n hn) p (Cert.Spec.hi r) (kOf n) :=
  step2 m c ⟨n, hn⟩ acc p r

theorem first_n (c : Dev nD) (n : ℕ) (hn : n < cfg0.N) (h0 : n % 14 = 0) :
    s0 m c n hn = k0_pay9 (bX m c ⟨n, hn⟩) (bW m c ⟨n, hn⟩) (k0_pay5 (F := Ideal))
    ∧ s1 m c n hn = k0_pay10 (bX m c ⟨n, hn⟩) (bA0 m c ⟨n, hn⟩) (k0_pay6 (F := Ideal))
    ∧ s2 m c n hn = k0_pay1 (k0_pay11 (bX m c ⟨n, hn⟩) (bA1 m c ⟨n, hn⟩) (k0_pay7 (F := Ideal))) :=
  at_first m c ⟨n, hn⟩ h0

theorem later_n (c : Dev nD) (n : ℕ) (hn : n + 1 < cfg0.N) (h0 : ¬ (n + 1) % 14 = 0) :
    s0 m c (n + 1) hn = k0_pay9 (bX m c ⟨n + 1, hn⟩) (bW m c ⟨n + 1, hn⟩) (s0 m c n (Nat.lt_of_succ_lt hn))
    ∧ s1 m c (n + 1) hn = k0_pay10 (bX m c ⟨n + 1, hn⟩) (bA0 m c ⟨n + 1, hn⟩) (s1 m c n (Nat.lt_of_succ_lt hn))
    ∧ s2 m c (n + 1) hn = k0_pay1 (k0_pay11 (bX m c ⟨n + 1, hn⟩) (bA1 m c ⟨n + 1, hn⟩) (s2 m c n (Nat.lt_of_succ_lt hn))) :=
  at_later m c ⟨n + 1, hn⟩ h0

/-! ## The invariant -/

/-- A first step leaves its own term: the total over the steps up to 0. -/
theorem inv_first (c : Dev nD) (n : ℕ) (hn : n < cfg0.N) (h0 : n % 14 = 0) :
    (∀ (p : Fin 512) (o : Fin 2112), s0 m c n hn (ix2 p o) = upTo (termW m c (iOf n hn) p o) (n % 14))
    ∧ (∀ (p : Fin 512) (r : Fin 64), s1 m c n hn (ix2 p r) = upTo (termA m c (iOf n hn) p (Cert.Spec.lo r)) (n % 14))
    ∧ (∀ (p : Fin 512) (r : Fin 64), s2 m c n hn (ix2 p r) = upTo (termA m c (iOf n hn) p (Cert.Spec.hi r)) (n % 14)) := by
  obtain ⟨e0, e1, e2⟩ := first_n m c n hn h0
  have hk : kOf n = ⟨0, by decide⟩ := Fin.ext h0
  refine ⟨fun p o => ?_, fun p r => ?_, fun p r => ?_⟩
  · rw [e0, step0_n, Payloads.pay5_apply, zero_add, h0, Cert.SumBlocks.upTo_zero _ (by decide), hk]
  · rw [e1, step1_n, Payloads.pay6_apply, zero_add, h0, Cert.SumBlocks.upTo_zero _ (by decide), hk]
  · rw [e2, step2_n, Payloads.pay7_apply, zero_add, h0, Cert.SumBlocks.upTo_zero _ (by decide), hk]

/-- After point n each running sum is the total of its terms over the steps 0, …, n % 14 of the row block. -/
theorem inv (c : Dev nD) : ∀ (n : ℕ) (hn : n < cfg0.N),
    (∀ (p : Fin 512) (o : Fin 2112), s0 m c n hn (ix2 p o) = upTo (termW m c (iOf n hn) p o) (n % 14))
    ∧ (∀ (p : Fin 512) (r : Fin 64), s1 m c n hn (ix2 p r) = upTo (termA m c (iOf n hn) p (Cert.Spec.lo r)) (n % 14))
    ∧ (∀ (p : Fin 512) (r : Fin 64), s2 m c n hn (ix2 p r) = upTo (termA m c (iOf n hn) p (Cert.Spec.hi r)) (n % 14)) := by
  intro n
  induction n with
  | zero => intro hn; exact inv_first m c 0 hn rfl
  | succ n ih =>
    intro hn
    by_cases h0 : (n + 1) % 14 = 0
    · exact inv_first m c (n + 1) hn h0
    · have hn' : n < cfg0.N := Nat.lt_of_succ_lt hn
      obtain ⟨e0, e1, e2⟩ := later_n m c n hn h0
      obtain ⟨i0, i1, i2⟩ := ih hn'
      have hk : (n + 1) % 14 = n % 14 + 1 := by omega
      have hlt : n % 14 + 1 < 14 := by omega
      have hi : iOf (n + 1) hn = iOf n hn' := Fin.ext (by show (n + 1) / 14 = n / 14; omega)
      have hkk : kOf (n + 1) = ⟨n % 14 + 1, hlt⟩ := Fin.ext hk
      refine ⟨fun p o => ?_, fun p r => ?_, fun p r => ?_⟩
      · rw [e0, step0_n, i0 p o, hk, Cert.SumBlocks.upTo_succ _ _ hlt, hi, hkk]
      · rw [e1, step1_n, i1 p r, hk, Cert.SumBlocks.upTo_succ _ _ hlt, hi, hkk]
      · rw [e2, step2_n, i2 p r, hk, Cert.SumBlocks.upTo_succ _ _ hlt, hi, hkk]

/-- After the last step of a row block the running sums hold the full rows of x · Wᵀ and of x · Aᵀ. -/
theorem last_sums (c : Dev nD) (n : ℕ) (hn : n < cfg0.N) (h1 : n % 14 = 13) :
    (∀ (p : Fin 512) (o : Fin 2112), s0 m c n hn (ix2 p o) = Cert.Spec.base (aX m c) (aW m c) (row (iOf n hn) p) o)
    ∧ (∀ (p : Fin 512) (r : Fin 64), s1 m c n hn (ix2 p r) = Cert.Spec.down (aX m c) (aA m c) (row (iOf n hn) p) (Cert.Spec.lo r))
    ∧ (∀ (p : Fin 512) (r : Fin 64), s2 m c n hn (ix2 p r) = Cert.Spec.down (aX m c) (aA m c) (row (iOf n hn) p) (Cert.Spec.hi r)) := by
  obtain ⟨i0, i1, i2⟩ := inv m c n hn
  refine ⟨fun p o => ?_, fun p r => ?_, fun p r => ?_⟩
  · rw [i0 p o, h1, Cert.SumBlocks.upTo_all _ 13 rfl, sumW]
  · rw [i1 p r, h1, Cert.SumBlocks.upTo_all _ 13 rfl, sumA]
  · rw [i2 p r, h1, Cert.SumBlocks.upTo_all _ 13 rfl, sumA]

/-! ## What a last step writes into the output block -/

/-- At a last step the output block holds, at (p, o), the result's entry at (row p of the row block, o). -/
theorem out_last (c : Dev nD) (t : Fin cfg0.N) (h1 : t.val % 14 = 13) (p : Fin 512) (o : Fin 2112) :
    (outsAt0 m c t.val t.isLt).1 (ix2 p o)
      = Cert.Spec.G (aX m c) (aW m c) (aBias m c) (aA m c) (aB m c) (ix2 (row (iOf t.val t.isLt) p) o) := by
  have h0 : ¬ t.val % 14 = 0 := by omega
  obtain ⟨e0, e1, e2⟩ := at_later m c t h0
  obtain ⟨l0, l1, l2⟩ := last_sums m c t.val t.isLt h1
  rw [outsAt0_C m c t h0 h1]
  dsimp only
  rw [Pieces.oC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
  rw [← e0, ← e1, ← e2]
  unfold Pieces.join
  by_cases ho : o.val < 1536
  · rw [dif_pos (show ((ix2 p o : S512x2112.Idx) 1).val < 1536 from ho), Cert.Spec.G_lt _ _ _ _ _ _ _ ho]
    refine (Payloads.pay3_apply _ _ _ _ p ⟨o.val, ho⟩).trans ?_
    refine congrArg₂ (· + ·) (congrArg₂ (· + ·) (l0 p o) (bBias_apply m c t o)) ?_
    unfold Cert.Spec.up0
    refine Finset.sum_congr rfl fun r _ => ?_
    rw [l1 p r]
    exact congrArg _ (bB0_apply m c t ⟨o.val, ho⟩ r)
  · rw [dif_neg (show ¬ ((ix2 p o : S512x2112.Idx) 1).val < 1536 from ho), Cert.Spec.G_ge _ _ _ _ _ _ _ ho]
    have ho2 : o.val - 1536 < 576 := by have := o.isLt; omega
    refine (Payloads.pay4_apply _ _ _ _ p ⟨o.val - 1536, ho2⟩).trans ?_
    have eo : (⟨1536 + (o.val - 1536), by omega⟩ : Fin 2112) = o := Fin.ext (by show 1536 + (o.val - 1536) = o.val; omega)
    rw [eo]
    refine congrArg₂ (· + ·) (congrArg₂ (· + ·) (l0 p o) (bBias_apply m c t o)) ?_
    unfold Cert.Spec.up1
    refine Finset.sum_congr rfl fun r _ => ?_
    rw [l2 p r]
    exact congrArg _ (bB1_apply m c t ⟨o.val - 1536, ho2⟩ r)

end Cert.KernelIdeal.Sums

end
-- ==== Proof.Final.lean ====
/-
  The result array after the run.

  The output window is written back only at the last reduction step of each of the sixteen row blocks, and there
  the block it writes is rows [512 i, 512 i + 512) of the specification's result. These sixteen blocks cover all
  8192 rows, so the array after the run is the specification's result, whatever it held before.
-/
import proofs.«161944_j79800492359938_1_alg».proof.Proof.Sums

set_option maxRecDepth 16384

noncomputable section

namespace Cert.KernelIdeal.Final

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The specification's result of this memory's argument arrays. -/
abbrev result (c : Dev nD) : Buf (Elt Ideal) ((c : Thread nD τ).loc main_v7) :=
  Cert.Spec.G (Sums.aX m c) (Sums.aW m c) (Sums.aBias m c) (Sums.aA m c) (Sums.aB m c)

/-- The output window is written back exactly at the last reduction steps. -/
theorem flush_iff : ∀ t : Fin cfg0.N, (cfg0.win 7).flush t = true ↔ t.val % 14 = 13 :=
  (by decide +kernel : ∀ t : Fin grid0.N, _)

/-- What a last step writes back is its block of the result. -/
theorem flushed_eq (c : Dev nD) (t : Fin cfg0.N) (hf : (cfg0.win 7).flush t = true) :
    (dats m 0 c).flushed 7 t = ((cfg0.win 7).blk t).view.read (Elt Ideal) (result m c) := by
  have h1 := (flush_iff t).mp hf
  obtain ⟨-, -, -, -, -, -, -, -, -, -, -, -, -, -, q0, q1⟩ := Blocks.idx_facts t
  rw [Value.flushed7]
  funext y
  show (outsAt0 m c t.val t.isLt).1 y = result m c (((cfg0.win 7).blk t).view.emb y)
  obtain ⟨p, o, rfl⟩ : ∃ (p : Fin 512) (o : Fin 2112), y = ix2 p o := ⟨y 0, y 1, eq_ix2 y⟩
  rw [Sums.out_last m c t h1 p o]
  refine congrArg _ (funext fun a => Fin.ext ?_)
  match a with
  | ⟨0, _⟩ => show 512 * (t.val / 14) + p.val = win0_7.index t 0 * 512 + 1 * p.val; rw [q0]; omega
  | ⟨1, _⟩ => show o.val = win0_7.index t 1 * 2112 + 1 * o.val; rw [q1]; omega

/-- An index of the result array is in point t's block iff each coordinate is in the block's range. -/
theorem mem_blk (t : Fin cfg0.N) (i : S8192x2112.Idx) :
    i ∈ ((cfg0.win 7).blk t).view.set ↔ ∀ a : Fin 2, win0_7.index t a * S512x2112.size a ≤ (i a).val
      ∧ (i a).val < win0_7.index t a * S512x2112.size a + S512x2112.size a := by
  show i ∈ ((View.whole main_v7).slice (win0_7.rect t)).set ↔ _
  rw [View.set_slice_whole, Rect.mem_set_unit]
  exact Iff.rfl

/-- Row s of the result lies in the block written at the last step of row block s / 512. -/
theorem cover (i : S8192x2112.Idx) :
    ∃ t : Fin cfg0.N, (cfg0.win 7).flush t = true ∧ i ∈ ((cfg0.win 7).blk t).view.set := by
  have hi0 : (i 0).val < 8192 := idx2_lt0 i
  have hi1 : (i 1).val < 2112 := idx2_lt1 i
  have hN := Sums.hN
  have hlt : 14 * ((i 0).val / 512) + 13 < cfg0.N := by omega
  obtain ⟨-, -, -, -, -, -, -, -, -, -, -, -, -, -, q0, q1⟩ := Blocks.idx_facts ⟨14 * ((i 0).val / 512) + 13, hlt⟩
  refine ⟨⟨14 * ((i 0).val / 512) + 13, hlt⟩, (flush_iff _).mpr (by show (14 * ((i 0).val / 512) + 13) % 14 = 13; omega), ?_⟩
  rw [mem_blk]
  intro a
  match a with
  | ⟨0, _⟩ =>
    show win0_7.index ⟨14 * ((i 0).val / 512) + 13, hlt⟩ 0 * 512 ≤ (i 0).val
      ∧ (i 0).val < win0_7.index ⟨14 * ((i 0).val / 512) + 13, hlt⟩ 0 * 512 + 512
    rw [q0]
    show (14 * ((i 0).val / 512) + 13) / 14 * 512 ≤ (i 0).val ∧ (i 0).val < (14 * ((i 0).val / 512) + 13) / 14 * 512 + 512
    omega
  | ⟨1, _⟩ =>
    show win0_7.index ⟨14 * ((i 0).val / 512) + 13, hlt⟩ 1 * 2112 ≤ (i 1).val
      ∧ (i 1).val < win0_7.index ⟨14 * ((i 0).val / 512) + 13, hlt⟩ 1 * 2112 + 2112
    rw [q1]
    omega

/-- The result array after the run. -/
theorem final (c : Dev nD) : (dats m 0 c).arrAt 7 cfg0.N = result m c :=
  (dats m 0 c).arrAt_eq_of_cover 7 (result m c) (flushed_eq m c) cover

/-- The run: the result array ends at the specification's result, the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Final

end
-- ==== Proof.LibWindowScatter.lean ====
/-
  A stablehlo.scatter that combines a block of whole rows into a WINDOW OF COLUMNS of a rank-2
  operand, read at an index.

  The operation: operand of shape [R, C], updates of shape [R, Cu], ONE scatter index (a rank-1
  array of one element) naming the first column off of the window, both update axes window axes,
  no inserted axis, the index vector mapped to operand axis 1. This is what
  out.at[:, off : off + Cu].add(u) lowers to. The library's meaning of the operation is a left
  fold over all R * Cu update positions, each step rewriting the one cell its position lands on.
  The fold is never evaluated here. Three facts give the element at (r, c):
    * a left fold whose steps each rewrite at most one cell leaves a cell alone when no step lands
      on it, and applies the combining function exactly once when exactly one step lands on it;
    * for these dimension numbers update position (p, q) lands on cell (p, off + q), inside the
      operand because off + Cu ≤ C;
    * so cell (r, c) is landed on by position (r, c - off) alone when off ≤ c < off + Cu, and by
      no position otherwise.
  Result: the element is f (operand r c) (update r (c - off)) inside the window and the operand's
  element outside it.
-/
import Idealize.ShloMosaic.PureOps.Ideal
import Idealize.ShloMosaic.Lib.ValueIdx

noncomputable section

namespace Cert.LibWindowScatter

open Idealize.ShloMosaic Idealize.ShloMosaic.ValueIdx

/-! ## A left fold that rewrites at most one cell per step -/

/-- If no step of the fold lands on cell i, the fold leaves cell i as it was. The step is a
    parameter described by what it does when the position lands somewhere else (hmiss) and when
    it lands nowhere (hnone). -/
theorem foldl_untouched {N I α : Type} (g : N → Option I) (step : (I → α) → N → (I → α))
    (hmiss : ∀ (r : I → α) (n : N) (k i : I), g n = some k → i ≠ k → step r n i = r i)
    (hnone : ∀ (r : I → α) (n : N), g n = none → step r n = r) (i : I) :
    ∀ (l : List N) (x : I → α), (∀ n ∈ l, g n ≠ some i) → l.foldl step x i = x i := by
  intro l
  induction l with
  | nil => intro x _; rfl
  | cons n l ih =>
    intro x h
    rw [List.foldl_cons, ih (step x n) (fun m hm => h m (List.mem_cons.2 (Or.inr hm)))]
    have hn := h n (List.mem_cons.2 (Or.inl rfl))
    cases hg : g n with
    | none => rw [hnone x n hg]
    | some k => exact hmiss x n k i hg (fun hik => hn (by rw [hg, hik]))

/-- If exactly one position n0 of a duplicate-free list lands on cell i, the fold combines the
    cell's first value with that position's update, once. -/
theorem foldl_hit_once {N I α : Type} (g : N → Option I) (f : α → α → α) (u : N → α)
    (step : (I → α) → N → (I → α))
    (hhit : ∀ (r : I → α) (n : N) (k : I), g n = some k → step r n k = f (r k) (u n))
    (hmiss : ∀ (r : I → α) (n : N) (k i : I), g n = some k → i ≠ k → step r n i = r i)
    (hnone : ∀ (r : I → α) (n : N), g n = none → step r n = r) (i : I) (n0 : N) (h0 : g n0 = some i) :
    ∀ (l : List N) (x : I → α), l.Nodup → n0 ∈ l → (∀ m ∈ l, g m = some i → m = n0) →
      l.foldl step x i = f (x i) (u n0) := by
  intro l
  induction l with
  | nil => intro x _ hmem; exact absurd hmem List.not_mem_nil
  | cons n l ih =>
    intro x hnd hmem huniq
    rw [List.foldl_cons]
    have hnl : n ∉ l := (List.nodup_cons.1 hnd).1
    have hndl : l.Nodup := (List.nodup_cons.1 hnd).2
    have hstay : g n ≠ some i → step x n i = x i := fun hne => by
      cases hg : g n with
      | none => rw [hnone x n hg]
      | some k => exact hmiss x n k i hg (fun hik => hne (by rw [hg, hik]))
    rcases List.mem_cons.1 hmem with heq | hin
    · -- n0 is the head: it rewrites the cell, and nothing in the tail lands there
      have hn : g n = some i := heq ▸ h0
      rw [foldl_untouched g step hmiss hnone i l (step x n) (fun m hm hgm => by
        have hm0 : m = n0 := huniq m (List.mem_cons.2 (Or.inr hm)) hgm
        exact hnl (heq ▸ hm0 ▸ hm)), hhit x n i hn, heq]
    · -- n0 is in the tail: the head does not land on the cell
      have hne : g n ≠ some i := fun hgn => by
        have hn0 : n = n0 := huniq n (List.mem_cons.2 (Or.inl rfl)) hgn
        exact hnl (hn0 ▸ hin)
      rw [ih (step x n) hndl hin (fun m hm => huniq m (List.mem_cons.2 (Or.inr hm))), hstay hne]

/-! ## Where an update position lands, for the column-window dimension numbers -/

/-- The rank-1 shape with one element has one index. -/
theorem idx1_eq (a b : (⟨1, ![1]⟩ : Shape).Idx) : a = b :=
  (eq_ix1 a).trans ((congrArg ix1 (Subsingleton.elim (α := Fin 1) (a 0) (b 0))).trans (eq_ix1 b).symm)

section Dims
variable {R C Cu : Nat} (d : ScatterDims ⟨2, ![R, C]⟩ ⟨1, ![1]⟩ ⟨2, ![R, Cu]⟩)

/-- The window starts at row 0: the index vector does not name the row axis. -/
theorem start_row (h3 : d.scatterDimsToOperandDims = [1]) {w : Nat} (j : (⟨2, ![R, Cu]⟩ : Shape).Idx)
    (idx : IVec ⟨1, ![1]⟩ w) : d.start j idx 0 = 0 := by
  unfold ScatterDims.start
  rw [dif_neg (by rw [h3]; exact fun h => Nat.zero_ne_one (congrArg Fin.val (List.mem_singleton.1 h)))]

/-- The window starts at the column the one scatter index names. -/
theorem start_col (h3 : d.scatterDimsToOperandDims = [1]) {w : Nat} (j : (⟨2, ![R, Cu]⟩ : Shape).Idx)
    (idx : IVec ⟨1, ![1]⟩ w) : d.start j idx 1 = (idx (ix1 (0 : Fin 1))).toInt := by
  unfold ScatterDims.start
  rw [dif_pos (by rw [h3]; exact List.mem_singleton.2 rfl)]
  exact congrArg (fun k => (idx k).toInt) (idx1_eq _ _)

/-- The window coordinate on the row axis is the update position's row. -/
theorem window_row (h1 : d.updateWindowDims = [0, 1]) (h2 : d.insertedWindowDims = [])
    (j : (⟨2, ![R, Cu]⟩ : Shape).Idx) : d.window j 0 = (j 0).val := by
  obtain ⟨uw, iw, sd, iv, wf⟩ := d
  dsimp only at h1 h2
  subst h1 h2
  rfl

/-- The window coordinate on the column axis is the update position's column. -/
theorem window_col (h1 : d.updateWindowDims = [0, 1]) (h2 : d.insertedWindowDims = [])
    (j : (⟨2, ![R, Cu]⟩ : Shape).Idx) : d.window j 1 = (j 1).val := by
  obtain ⟨uw, iw, sd, iv, wf⟩ := d
  dsimp only at h1 h2
  subst h1 h2
  rfl

/-- Update position (p, q) lands on cell (p, off + q), which is inside the operand. -/
theorem resultIdx_eq (h1 : d.updateWindowDims = [0, 1]) (h2 : d.insertedWindowDims = [])
    (h3 : d.scatterDimsToOperandDims = [1]) {w : Nat} (idx : IVec ⟨1, ![1]⟩ w) (off : Nat)
    (hoff : (idx (ix1 (0 : Fin 1))).toInt = (off : ℤ)) (hfit : off + Cu ≤ C)
    (j : (⟨2, ![R, Cu]⟩ : Shape).Idx) :
    d.resultIdx? j idx
      = some (ix2 (⟨(j 0).val, idx2_lt0 j⟩ : Fin R)
          (⟨off + (j 1).val, by have := idx2_lt1 j; omega⟩ : Fin C)) := by
  have s0 : d.start j idx 0 = 0 := start_row d h3 j idx
  have s1 : d.start j idx 1 = (off : ℤ) := (start_col d h3 j idx).trans hoff
  have w0 : d.window j 0 = (j 0).val := window_row d h1 h2 j
  have w1 : d.window j 1 = (j 1).val := window_col d h1 h2 j
  have hj0 : (j 0).val < R := idx2_lt0 j
  have hj1 : (j 1).val < Cu := idx2_lt1 j
  have hall : ∀ a, 0 ≤ d.start j idx a + d.window j a
      ∧ d.start j idx a + d.window j a < (⟨2, ![R, C]⟩ : Shape).size a := by
    intro a
    match a with
    | ⟨0, _⟩ =>
      show 0 ≤ d.start j idx 0 + (d.window j 0 : ℤ) ∧ d.start j idx 0 + (d.window j 0 : ℤ) < (R : ℤ)
      rw [s0, w0]; omega
    | ⟨1, _⟩ =>
      show 0 ≤ d.start j idx 1 + (d.window j 1 : ℤ) ∧ d.start j idx 1 + (d.window j 1 : ℤ) < (C : ℤ)
      rw [s1, w1]; omega
  unfold ScatterDims.resultIdx?
  rw [dif_pos hall]
  refine congrArg some (funext fun a => ?_)
  match a with
  | ⟨0, _⟩ =>
    refine Fin.ext ?_
    show (d.start j idx 0 + (d.window j 0 : ℤ)).toNat = (j 0).val
    rw [s0, w0]; omega
  | ⟨1, _⟩ =>
    refine Fin.ext ?_
    show (d.start j idx 1 + (d.window j 1 : ℤ)).toNat = off + (j 1).val
    rw [s1, w1]; omega

end Dims

/-! ## The scatter read at a cell, for any dimension numbers -/

section Read
variable {s si u : Shape} {α : Type} {w : Nat} (d : ScatterDims s si u) (f : α → α → α) (x : s.Idx → α)
  (idx : IVec si w) (upd : u.Idx → α)

/-- A cell no update position lands on keeps the operand's element. -/
theorem scatter_untouched (i : s.Idx) (h : ∀ j : u.Idx, d.resultIdx? j idx ≠ some i) :
    Host.scatter d f x idx upd i = x i := by
  unfold Host.scatter
  refine foldl_untouched (fun n => d.resultIdx? (u.rowMajor.symm n) idx) _ ?_ ?_ i _ x (fun n _ => h _)
  · intro ρ n k i' hk hne
    rw [hk]
    exact if_neg hne
  · intro ρ n hn
    rw [hn]

/-- A cell exactly one update position j0 lands on holds the combination of the operand's element
    with that position's update. -/
theorem scatter_hit_once (i : s.Idx) (j0 : u.Idx) (h0 : d.resultIdx? j0 idx = some i)
    (huniq : ∀ j : u.Idx, d.resultIdx? j idx = some i → j = j0) :
    Host.scatter d f x idx upd i = f (x i) (upd j0) := by
  unfold Host.scatter
  refine (foldl_hit_once (fun n => d.resultIdx? (u.rowMajor.symm n) idx) f
    (fun n => upd (u.rowMajor.symm n)) _ ?_ ?_ ?_ i (u.rowMajor j0) ?_ _ x
    (List.nodup_finRange _) (List.mem_finRange _) ?_).trans ?_
  · intro ρ n k hk
    rw [hk]
    exact if_pos rfl
  · intro ρ n k i' hk hne
    rw [hk]
    exact if_neg hne
  · intro ρ n hn
    rw [hn]
  · show d.resultIdx? (u.rowMajor.symm (u.rowMajor j0)) idx = some i
    rw [Equiv.symm_apply_apply]
    exact h0
  · intro m _ hm
    have hj : u.rowMajor.symm m = j0 := huniq _ hm
    rw [← hj, Equiv.apply_symm_apply]
  · show f (x i) (upd (u.rowMajor.symm (u.rowMajor j0))) = f (x i) (upd j0)
    rw [Equiv.symm_apply_apply]

end Read

/-! ## The column-window scatter read at (r, c) -/

/-- The element at row r, column c of a scatter of a block of Cu whole columns at column offset
    off into an operand of C columns, off + Cu ≤ C: inside the window the combining function of the
    operand's element and the update's at column c - off, outside it the operand's element. -/
theorem scatter_cols_read {R C Cu : Nat} {α : Type} (d : ScatterDims ⟨2, ![R, C]⟩ ⟨1, ![1]⟩ ⟨2, ![R, Cu]⟩)
    (h1 : d.updateWindowDims = [0, 1]) (h2 : d.insertedWindowDims = [])
    (h3 : d.scatterDimsToOperandDims = [1]) (h4 : d.indexVectorDim = 0) (f : α → α → α)
    (x : (⟨2, ![R, C]⟩ : Shape).Idx → α) (idx : IVec ⟨1, ![1]⟩ 32)
    (upd : (⟨2, ![R, Cu]⟩ : Shape).Idx → α) (off : Nat)
    (hoff : (idx (ix1 (0 : Fin 1))).toInt = (off : ℤ)) (hfit : off + Cu ≤ C) (r : Fin R) (c : Fin C) :
    Host.scatter d f x idx upd (ix2 r c)
      = if h : off ≤ c.val ∧ c.val < off + Cu then
          f (x (ix2 r c)) (upd (ix2 r ⟨c.val - off, by omega⟩))
        else x (ix2 r c) := by
  have hland := resultIdx_eq d h1 h2 h3 idx off hoff hfit
  by_cases hc : off ≤ c.val ∧ c.val < off + Cu
  · rw [dif_pos hc]
    refine scatter_hit_once d f x idx upd (ix2 r c) (ix2 r (⟨c.val - off, by omega⟩ : Fin Cu)) ?_ ?_
    · rw [hland]
      refine congrArg some (funext fun a => ?_)
      match a with
      | ⟨0, _⟩ => rfl
      | ⟨1, _⟩ =>
        refine Fin.ext ?_
        show off + (c.val - off) = c.val
        omega
    · intro j hj
      rw [hland] at hj
      have e := Option.some.inj hj
      have e0 : (j 0).val = r.val := congrArg (fun i : (⟨2, ![R, C]⟩ : Shape).Idx => (i 0).val) e
      have e1 : off + (j 1).val = c.val := congrArg (fun i : (⟨2, ![R, C]⟩ : Shape).Idx => (i 1).val) e
      funext a
      match a with
      | ⟨0, _⟩ => exact Fin.ext e0
      | ⟨1, _⟩ =>
        refine Fin.ext ?_
        show (j 1).val = c.val - off
        omega
  · rw [dif_neg hc]
    refine scatter_untouched d f x idx upd (ix2 r c) (fun j hj => ?_)
    rw [hland] at hj
    have e := Option.some.inj hj
    have e1 : off + (j 1).val = c.val := congrArg (fun i : (⟨2, ![R, C]⟩ : Shape).Idx => (i 1).val) e
    have hj1 : (j 1).val < Cu := idx2_lt1 j
    exact hc ⟨by omega, by omega⟩

end Cert.LibWindowScatter

end
-- ==== Proof.RefIsG.lean ====
/-
  The reference's result array is G (Spec.lean), element by element.

  The reference computes v3 = x · Wᵀ + bias (broadcast along rows), la = x · Aᵀ, then adds
  la[:, :64] · B[0]ᵀ into columns [0, 1536) of v3 (a column-window scatter at offset 0, giving v10) and
  la[:, 64:] · B[1, :576]ᵀ into columns [1536, 2112) of v10 (a column-window scatter at offset 1536,
  giving v16). Read at (s, o): for o < 1536 the second scatter leaves v10 alone and the first adds
  up0 s o to v3; for o ≥ 1536 the first leaves v3 alone and the second adds up1 s (o - 1536).
  The combining function of both scatters is the sum (operand's element + update's), which is G's
  own grouping (base + bias) + up, so only index equations are needed: no law of the extended reals.
-/
import proofs.«161944_j79800492359938_1_alg».proof.Proof.Gen.ReferenceIdeal.Read
import proofs.«161944_j79800492359938_1_alg».proof.Proof.Spec
import proofs.«161944_j79800492359938_1_alg».proof.Proof.LibWindowScatter

noncomputable section

namespace Cert.RefIsG

open Cert.ReferenceIdeal Cert.ReferenceIdeal.Gen Cert.ReferenceIdeal.Read Idealize.ShloMosaic
  Idealize.ShloMosaic.ValueIdx Cert.Spec Cert.LibWindowScatter

section Stages
variable (x0 : (⟨S8192x7168, .f32⟩ : BufTy).Contents (Elt Ideal))
  (x1 : (⟨S2112x7168, .f32⟩ : BufTy).Contents (Elt Ideal))
  (x2 : (⟨S2112, .f32⟩ : BufTy).Contents (Elt Ideal))
  (x3 : (⟨S128x7168, .f32⟩ : BufTy).Contents (Elt Ideal))
  (x4 : (⟨S2x1536x64, .f32⟩ : BufTy).Contents (Elt Ideal))

/-- The linear layer with its bias at (s, o). -/
theorem v3_at (s : Fin 8192) (o : Fin 2112) :
    val_main_v3 (F := Ideal) x0 x1 x2 (ix2 s o) = base x0 x1 s o + x2 (ix1 o) := by
  have el : ∀ k : Fin 7168, lidx_main_v0 (ix2 s o) k = ix2 s k := fun k =>
    funext fun a => Fin.ext (by match a with | ⟨0, _⟩ => rfl | ⟨1, _⟩ => rfl)
  have er : ∀ k : Fin 7168, ridx_main_v0 (ix2 s o) k = ix2 o k := fun k =>
    funext fun a => Fin.ext (by match a with | ⟨0, _⟩ => rfl | ⟨1, _⟩ => rfl)
  have eb : idx_main_v1 (idx_main_v2 (ix2 s o)) = ix1 o :=
    funext fun a => Fin.ext (by match a with | ⟨0, _⟩ => rfl)
  rw [val_main_v3_apply, val_main_v0_apply, val_main_v2_apply, val_main_v1_apply, eb, Ideal.addf_def]
  simp only [el, er]
  rfl

/-- The stacked down-projection at (s, r). -/
theorem v4_at (s : Fin 8192) (r : Fin 128) :
    val_main_v4 (F := Ideal) x0 x3 (ix2 s r) = down x0 x3 s r := by
  have el : ∀ k : Fin 7168, lidx_main_v4 (ix2 s r) k = ix2 s k := fun k =>
    funext fun a => Fin.ext (by match a with | ⟨0, _⟩ => rfl | ⟨1, _⟩ => rfl)
  have er : ∀ k : Fin 7168, ridx_main_v4 (ix2 s r) k = ix2 r k := fun k =>
    funext fun a => Fin.ext (by match a with | ⟨0, _⟩ => rfl | ⟨1, _⟩ => rfl)
  rw [val_main_v4_apply]
  simp only [el, er]
  rfl

/-- The first slice's up-projection at (s, o). -/
theorem v8_at (s : Fin 8192) (o : Fin 1536) :
    val_main_v8 (F := Ideal) x0 x3 x4 (ix2 s o) = up0 x0 x3 x4 s o := by
  rw [val_main_v8_apply]
  unfold up0
  refine Finset.sum_congr rfl fun k _ => ?_
  have ho := o.isLt
  have hk := k.isLt
  have e5 : idx_main_v5 (lidx_main_v8 (ix2 s o) k) = ix2 s (lo k) :=
    funext fun a => Fin.ext (by match a with | ⟨0, _⟩ => rfl | ⟨1, _⟩ => rfl)
  have e7 : idx_main_v6 (idx_main_v7 (ridx_main_v8 (ix2 s o) k)) = ix3 (0 : Fin 2) o k :=
    funext fun a => Fin.ext (by
      match a with
      | ⟨0, _⟩ => rfl
      | ⟨1, _⟩ => show (o.val * 64 + k.val) / 64 % 1536 = o.val; omega
      | ⟨2, _⟩ => show (o.val * 64 + k.val) % 64 = k.val; omega)
  rw [val_main_v5_apply, e5, v4_at, val_main_v7_apply, val_main_v6_apply, e7]

/-- The second slice's up-projection at (s, o). -/
theorem v14_at (s : Fin 8192) (o : Fin 576) :
    val_main_v14 (F := Ideal) x0 x3 x4 (ix2 s o) = up1 x0 x3 x4 s o := by
  rw [val_main_v14_apply]
  unfold up1
  refine Finset.sum_congr rfl fun k _ => ?_
  have ho := o.isLt
  have hk := k.isLt
  have e11 : idx_main_v11 (lidx_main_v14 (ix2 s o) k) = ix2 s (hi k) :=
    funext fun a => Fin.ext (by match a with | ⟨0, _⟩ => rfl | ⟨1, _⟩ => rfl)
  have e13 : idx_main_v12 (idx_main_v13 (ridx_main_v14 (ix2 s o) k)) = ix3 (1 : Fin 2) (pad o) k :=
    funext fun a => Fin.ext (by
      match a with
      | ⟨0, _⟩ => rfl
      | ⟨1, _⟩ => show (o.val * 64 + k.val) / 64 % 576 = o.val; omega
      | ⟨2, _⟩ => show (o.val * 64 + k.val) % 64 = k.val; omega)
  rw [val_main_v11_apply, e11, v4_at, val_main_v13_apply, val_main_v12_apply, e13]

/-- After the first scatter: columns below 1536 have the first slice's up-projection added. -/
theorem v10_at (s : Fin 8192) (o : Fin 2112) :
    val_main_v10 (F := Ideal) x0 x1 x2 x3 x4 (ix2 s o)
      = if h : o.val < 1536 then (base x0 x1 s o + x2 (ix1 o)) + up0 x0 x3 x4 s ⟨o.val, h⟩
        else base x0 x1 s o + x2 (ix1 o) := by
  unfold val_main_v10
  have hoff : (val_main_v9 (F := Ideal) (ix1 (0 : Fin 1))).toInt = ((0 : ℕ) : ℤ) := by
    rw [val_main_v9_apply, val_main_c_apply]; rfl
  rw [scatter_cols_read scatter_S8192x2112_S1_S8192x1536_01_n_1_0 rfl rfl rfl rfl _ _ _ _ 0 hoff
    (by decide) s o]
  by_cases h : o.val < 1536
  · have e : ∀ p, (⟨o.val - 0, p⟩ : Fin 1536) = ⟨o.val, h⟩ := fun p => Fin.ext (Nat.sub_zero _)
    rw [dif_pos (show 0 ≤ o.val ∧ o.val < 0 + 1536 from ⟨Nat.zero_le _, by omega⟩), dif_pos h, v3_at,
      Ideal.addf_def, e, v8_at]
  · rw [dif_neg (fun hh : 0 ≤ o.val ∧ o.val < 0 + 1536 => h (by omega)), dif_neg h, v3_at]

end Stages

/-- The reference's result is G. -/
theorem ref_eq (x0 : (⟨Cert.ReferenceIdeal.S8192x7168, .f32⟩ : BufTy).Contents (Elt Ideal))
    (x1 : (⟨Cert.ReferenceIdeal.S2112x7168, .f32⟩ : BufTy).Contents (Elt Ideal))
    (x2 : (⟨Cert.ReferenceIdeal.S2112, .f32⟩ : BufTy).Contents (Elt Ideal))
    (x3 : (⟨Cert.ReferenceIdeal.S128x7168, .f32⟩ : BufTy).Contents (Elt Ideal))
    (x4 : (⟨Cert.ReferenceIdeal.S2x1536x64, .f32⟩ : BufTy).Contents (Elt Ideal)) :
    Cert.ReferenceIdeal.Read.val_main_v16 (F := Ideal) x0 x1 x2 x3 x4 = Cert.Spec.G x0 x1 x2 x3 x4 := by
  funext i
  obtain ⟨s, o, rfl⟩ : ∃ (s : Fin 8192) (o : Fin 2112), i = ix2 s o := ⟨i 0, i 1, eq_ix2 i⟩
  unfold val_main_v16
  have hoff : (val_main_v15 (F := Ideal) (ix1 (0 : Fin 1))).toInt = ((1536 : ℕ) : ℤ) := by
    rw [val_main_v15_apply, val_main_c_0_apply]; rfl
  have ho := o.isLt
  rw [scatter_cols_read scatter_S8192x2112_S1_S8192x576_01_n_1_0 rfl rfl rfl rfl _ _ _ _ 1536 hoff
    (by decide) s o, v10_at]
  by_cases h : o.val < 1536
  · rw [dif_neg (fun hh : 1536 ≤ o.val ∧ o.val < 1536 + 576 => by omega), dif_pos h, G_lt _ _ _ _ _ s o h]
  · rw [dif_pos (show 1536 ≤ o.val ∧ o.val < 1536 + 576 from ⟨by omega, by omega⟩), dif_neg h,
      G_ge _ _ _ _ _ s o h, Ideal.addf_def, v14_at]

end Cert.RefIsG

end
-- ==== Proof.lean ====
/-
  A linear layer with two low-rank (LoRA) corrections on disjoint column ranges, fused in one kernel, against its
  reference in plain array operations: out = x · Wᵀ + bias, plus (x · A₀ᵀ) · B₀ᵀ on columns [0, 1536) and
  (x · A₁ᵀ) · B₁ᵀ on columns [1536, 2112).

  The kernel walks a 16 × 14 grid: sixteen blocks of 512 rows of x, and for each of them fourteen reduction steps
  over blocks of 512 of the 7168 columns. It keeps three running sums (of x · Wᵀ, x · A₀ᵀ and x · A₁ᵀ), zeroed at
  the first step and added to at each step, and at the last step writes (running sum + bias) plus the two small
  products with B₀ and B₁ into the output block's two column ranges. The reference forms the whole products at
  once and adds the two corrections into their column windows.

  Over the extended reals both compute the one function Spec.G of the five argument arrays: the changes of float
  format are the identity, and the only rearrangement is the regrouping of each sum over the 7168 columns into
  fourteen blocks of 512, which holds in any commutative additive monoid, so the precondition (finite inputs) is
  never opened. Sums.inv is the induction over the grid points; Final.final reads the result array after the run;
  RefIsG.ref_eq reads the reference's last stage, its two window scatters by LibWindowScatter.

  The frames of the two kernel programs are the generated ones; the reference's frame is its generated run with
  the result dropped; the kernel's idealization rewrote nothing, so the preservation conjunct is trivial.
-/
import proofs.«161944_j79800492359938_1_alg».proof.Defs
import proofs.«161944_j79800492359938_1_alg».proof.Proof.Gen.Kernel
import proofs.«161944_j79800492359938_1_alg».proof.Proof.Gen.Kernel.Skeleton
import proofs.«161944_j79800492359938_1_alg».proof.Proof.Gen.Kernel.Launch
import proofs.«161944_j79800492359938_1_alg».proof.Proof.Gen.Kernel.Points
import proofs.«161944_j79800492359938_1_alg».proof.Proof.Gen.Kernel.Frame
import proofs.«161944_j79800492359938_1_alg».proof.Proof.Gen.KernelIdeal
import proofs.«161944_j79800492359938_1_alg».proof.Proof.Gen.KernelIdeal.Skeleton
import proofs.«161944_j79800492359938_1_alg».proof.Proof.Gen.KernelIdeal.Launch
import proofs.«161944_j79800492359938_1_alg».proof.Proof.Gen.KernelIdeal.Points
import proofs.«161944_j79800492359938_1_alg».proof.Proof.Gen.KernelIdeal.Frame
import proofs.«161944_j79800492359938_1_alg».proof.Proof.Gen.ReferenceIdeal
import proofs.«161944_j79800492359938_1_alg».proof.Proof.Gen.Pre_finite_inputs
import proofs.«161944_j79800492359938_1_alg».proof.Proof.Gen.KernelIdeal.Value
import proofs.«161944_j79800492359938_1_alg».proof.Proof.Gen.ReferenceIdeal.Run
import proofs.«161944_j79800492359938_1_alg».proof.Proof.Gen.ReferenceIdeal.Read
import proofs.«161944_j79800492359938_1_alg».proof.Proof.Final
import proofs.«161944_j79800492359938_1_alg».proof.Proof.RefIsG
import Idealize.ShloMosaic.Adequacy
import Idealize.ShloMosaic.Init

noncomputable section

namespace Cert.Proof

open Idealize.ShloMosaic Idealize.SL.Sem

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments alone: its run, with the statement about the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification's result of arguments that agree. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.RefIsG.ref_eq, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
